-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S2x96x64 : Shape := ⟨3, ![2, 96, 64]⟩
abbrev S2x64 : Shape := ⟨2, ![2, 64]⟩
abbrev S2x64x64 : Shape := ⟨3, ![2, 64, 64]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S2x96x64 : S_.BroadcastsInDim S2x96x64 (![] : Fin 0 → Fin S2x96x64.rank)
  reducesTo_S2x96x64_S_d0_1_2 : S2x96x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg10 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 50000#32
  let main_v53 : IVec S800000 32 := broadcastInDim S800000 ![] bcast_S_S800000 main_c_20
  let main_v54 : IVec S800000 1 := cmpi .slt main_arg10 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg7 : FVec F S64 .f32) (main_arg8 : FVec F S64x64 .f32) (main_arg9 : FVec F S64 .f32) (main_arg10 : IVec S800000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg10 main_v49
  fn_part3 (F := F) main_arg10 main_v48 main_v50

def fn_part1 {F : FTy → Type} [FloatOps F] (main_arg4 : FVec F S2x64x64 .f32) (main_arg5 : FVec F S2x64 .f32) (main_arg6 : FVec F S128x64 .f32) (main_arg7 : FVec F S64 .f32) (main_arg8 : FVec F S64x64 .f32) (main_arg9 : FVec F S64 .f32) (main_arg10 : IVec S800000 32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x64 .f32) (main_arg1 : FVec F S800000x32 .f32) (main_arg2 : FVec F S2x96x64 .f32) (main_arg3 : FVec F S2x64 .f32) (main_arg4 : FVec F S2x64x64 .f32) (main_arg5 : FVec F S2x64 .f32) (main_arg6 : FVec F S128x64 .f32) (main_arg7 : FVec F S64 .f32) (main_arg8 : FVec F S64x64 .f32) (main_arg9 : FVec F S64 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S2x96x64 .f32 := Host.absf main_arg2
  let main_cst_2 : FVec F S_ .f32 := constant S_ .f32 0x7F800000#32
  let main_v10 : FVec F S2x96x64 .f32 := broadcastInDim S2x96x64 ![] bcast_S_S2x96x64 main_cst_2
  let main_v11 : IVec S2x96x64 1 := cmpf .olt main_v9 main_v10
  let main_c_3 : IVec S_ 1 := constantI S_ 1 1#1
  let main_v12 : IVec S_ 1 := (fun x v => Host.reduce IntOp.andi x v reducesTo_S2x96x64_S_d0_1_2 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_arg5 main_arg6 main_arg7 main_arg8 main_arg9 main_arg10 main_v13 main_v16
-- ==== Kernel.lean ====
abbrev S50000x64 : Shape := ⟨2, ![50000, 64]⟩
abbrev S800000x32 : Shape := ⟨2, ![800000, 32]⟩
abbrev S2x96x64 : Shape := ⟨3, ![2, 96, 64]⟩
abbrev S2x64 : Shape := ⟨2, ![2, 64]⟩
abbrev S2x64x64 : Shape := ⟨3, ![2, 64, 64]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S2x32x64 : Shape := ⟨3, ![2, 32, 64]⟩
abbrev S5000x64 : Shape := ⟨2, ![5000, 64]⟩
abbrev S5000x32 : Shape := ⟨2, ![5000, 32]⟩
abbrev S1x64x64 : Shape := ⟨3, ![1, 64, 64]⟩
abbrev S1x32x64 : Shape := ⟨3, ![1, 32, 64]⟩
abbrev S32x64 : Shape := ⟨2, ![32, 64]⟩
abbrev S1x64 : Shape := ⟨2, ![1, 64]⟩
abbrev S800000x65 : Shape := ⟨2, ![800000, 65]⟩
abbrev S50000x65 : Shape := ⟨2, ![50000, 65]⟩
abbrev S50000x1 : Shape := ⟨2, ![50000, 1]⟩

abbrev nBuf : Space → Nat
  | .hbm => 59
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S2x96x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x64, .f32⟩
  | .hbm, ⟨31, _⟩ => ⟨S800000x64, .i1⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S2x96x64, .bf16⟩
  | .hbm, ⟨36, _⟩ => ⟨S2x64x64, .bf16⟩
  | .hbm, ⟨37, _⟩ => ⟨S2x64x64, .bf16⟩
  | .hbm, ⟨38, _⟩ => ⟨S2x32x64, .bf16⟩
  | .hbm, ⟨39, _⟩ => ⟨S800000x64, .f32⟩
  | .hbm, ⟨40, _⟩ => ⟨S_, .f32⟩
  | .hbm, ⟨41, _⟩ => ⟨S800000x1, .f32⟩
  | .hbm, ⟨42, _⟩ => ⟨S800000x65, .f32⟩
  | .hbm, ⟨43, _⟩ => ⟨S_, .f32⟩
  | .hbm, ⟨44, _⟩ => ⟨S50000x65, .f32⟩
  | .hbm, ⟨45, _⟩ => ⟨S800000x1, .i32⟩
  | .hbm, ⟨46, _⟩ => ⟨S50000x65, .f32⟩
  | .hbm, ⟨47, _⟩ => ⟨S50000x64, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S128x64, .bf16⟩
  | .hbm, ⟨55, _⟩ => ⟨S64x64, .bf16⟩
  | .hbm, ⟨56, _⟩ => ⟨S64x64, .bf16⟩
  | .hbm, ⟨57, _⟩ => ⟨S64x64, .bf16⟩
  | .hbm, ⟨58, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x32, .f32⟩
  | .local _ .vmem, ⟨3, _⟩ => ⟨S5000x32, .f32⟩
  | .local _ .vmem, ⟨4, _⟩ => ⟨S2x64x64, .bf16⟩
  | .local _ .vmem, ⟨5, _⟩ => ⟨S2x32x64, .bf16⟩
  | .local _ .vmem, ⟨6, _⟩ => ⟨S2x64, .f32⟩
  | .local _ .vmem, ⟨7, _⟩ => ⟨S2x64x64, .bf16⟩
  | .local _ .vmem, ⟨8, _⟩ => ⟨S2x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .bf16⟩
  | .local _ .vmem, ⟨16, _⟩ => ⟨S64x64, .bf16⟩
  | .local _ .vmem, ⟨17, _⟩ => ⟨S64, .f32⟩
  | .local _ .vmem, ⟨18, _⟩ => ⟨S64x64, .bf16⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_cst : Ref sig .tc := ⟨.hbm, 40, rfl⟩
abbrev main_v6 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  slices_S2x96x64_S2x64x64_0_0_0 : S2x96x64.Slices ![0, 0, 0] S2x64x64
  slices_S2x96x64_S2x32x64_0_64_0 : S2x96x64.Slices ![0, 64, 0] S2x32x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x32_S5000x32_0_0 : ∀ a, (![0, 0] : Fin 2 → Nat) a + S5000x32.size a ≤ S5000x32.size a
  h_S5000x32 : 0 < S5000x32.numel
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S2x32x64_S1x32x64_0_0_0 : ∀ a, (![0, 0, 0] : Fin 3 → Nat) a + S1x32x64.size a ≤ S2x32x64.size a
  h_S1x32x64 : 0 < S1x32x64.numel
  shapeCasts_S1x32x64_S32x64 : S1x32x64.ShapeCasts S32x64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  inb_S2x64x64_S1x64x64_1_0_0 : ∀ a, (![1, 0, 0] : Fin 3 → Nat) a + S1x64x64.size a ≤ S2x64x64.size a
  inb_S2x32x64_S1x32x64_1_0_0 : ∀ a, (![1, 0, 0] : Fin 3 → Nat) a + S1x32x64.size a ≤ S2x32x64.size a
  inb_S2x64_S1x64_1_0 : ∀ a, (![1, 0] : Fin 2 → Nat) a + S1x64.size a ≤ S2x64.size a
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S128x64_S64x64_0_0 : S128x64.Slices ![0, 0] S64x64
  slices_S128x64_S64x64_64_0 : S128x64.Slices ![64, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  scatter_S50000x65_S800000x1_S800000x65_1_0_0_1_wf : ScatterDims.WF S50000x65 S800000x1 S800000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S800000x32.size a
  hwx0_1 : ∀ i : grid0.Coords, EltTy.bits .f32 = 32 ∨ (Rect.block (s := S800000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x64.size a ≤ S2x64x64.size a
  hwx0_2 : ∀ i : grid0.Coords, EltTy.bits .bf16 = 32 ∨ (Rect.block (s := S2x64x64) S2x64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32x64.size a ≤ S2x32x64.size a
  hwx0_3 : ∀ i : grid0.Coords, EltTy.bits .bf16 = 32 ∨ (Rect.block (s := S2x32x64) S2x32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64x64.size a ≤ S2x64x64.size a
  hwx0_5 : ∀ i : grid0.Coords, EltTy.bits .bf16 = 32 ∨ (Rect.block (s := S2x64x64) S2x64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S800000x64.size a
  hwx0_7 : ∀ i : grid0.Coords, EltTy.bits .f32 = 32 ∨ (Rect.block (s := S800000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S2x96x64 : Shape := ⟨3, ![2, 96, 64]⟩
abbrev S2x64 : Shape := ⟨2, ![2, 64]⟩
abbrev S2x64x64 : Shape := ⟨3, ![2, 64, 64]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S1x96x64 : Shape := ⟨3, ![1, 96, 64]⟩
abbrev S96x64 : Shape := ⟨2, ![96, 64]⟩
abbrev S1x64 : Shape := ⟨2, ![1, 64]⟩
abbrev S1x64x64 : Shape := ⟨3, ![1, 64, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S2x96x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x96, .f32⟩
  | .hbm, ⟨22, _⟩ => ⟨S_, .f32⟩
  | .hbm, ⟨23, _⟩ => ⟨S800000x64, .f32⟩
  | .hbm, ⟨24, _⟩ => ⟨S1x96x64, .f32⟩
  | .hbm, ⟨25, _⟩ => ⟨S96x64, .f32⟩
  | .hbm, ⟨26, _⟩ => ⟨S800000x64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S1x64x64, .f32⟩
  | .hbm, ⟨36, _⟩ => ⟨S64x64, .f32⟩
  | .hbm, ⟨37, _⟩ => ⟨S800000x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S1x96x64, .f32⟩
  | .hbm, ⟨45, _⟩ => ⟨S96x64, .f32⟩
  | .hbm, ⟨46, _⟩ => ⟨S800000x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S800000x64, .f32⟩
  | .hbm, ⟨54, _⟩ => ⟨S800000x64, .f32⟩
  | .hbm, ⟨55, _⟩ => ⟨S1x64x64, .f32⟩
  | .hbm, ⟨56, _⟩ => ⟨S64x64, .f32⟩
  | .hbm, ⟨57, _⟩ => ⟨S800000x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S800000x64, .f32⟩
  | .hbm, ⟨62, _⟩ => ⟨S800000x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x64, .f32⟩
  | .hbm, ⟨79, _⟩ => ⟨S50000x64, .f32⟩
  | .hbm, ⟨80, _⟩ => ⟨S50000x128, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_cst : Ref sig .tc := ⟨.hbm, 85, rfl⟩
abbrev main_call2_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S_S800000x64 : S_.BroadcastsInDim S800000x64 (![] : Fin 0 → Fin S800000x64.rank)
  slices_S2x96x64_S1x96x64_0_0_0 : S2x96x64.Slices ![0, 0, 0] S1x96x64
  shapeCasts_S1x96x64_S96x64 : S1x96x64.ShapeCasts S96x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  slices_S2x64x64_S1x64x64_0_0_0 : S2x64x64.Slices ![0, 0, 0] S1x64x64
  shapeCasts_S1x64x64_S64x64 : S1x64x64.ShapeCasts S64x64
  slices_S2x96x64_S1x96x64_1_0_0 : S2x96x64.Slices ![1, 0, 0] S1x96x64
  slices_S2x64_S1x64_1_0 : S2x64.Slices ![1, 0] S1x64
  slices_S2x64x64_S1x64x64_1_0_0 : S2x64x64.Slices ![1, 0, 0] S1x64x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.PreDecode.lean ====
/-
  The precondition read back: its last two conjuncts say that every source index word, read signed, is at least 0 and
  below 50000.  The printed predicate is a chain of `and`s of whole-array `all`s; an `and` that is 1 has both operands 1,
  and an `all` that is 1 has a 1 at every element, which for a signed comparison is the comparison itself.
-/
import proofs.«424879_j24713241821695_4_alg».proof.Pre_finite_inputs
import proofs.«424879_j24713241821695_4_alg».proof.Proof.Gen.Pre_finite_inputs
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs

instance : Subsingleton S_.Idx := ⟨fun a b => funext fun d => d.elim0⟩

/-- Under the precondition every source index is in [0, 50000). -/
theorem src_range {F : FTy → Type} [FloatOps F] (a0 : FVec F S50000x64 .f32) (a1 : FVec F S800000x32 .f32)
    (a2 : FVec F S2x96x64 .f32) (a3 : FVec F S2x64 .f32) (a4 : FVec F S2x64x64 .f32) (a5 : FVec F S2x64 .f32)
    (a6 : FVec F S128x64 .f32) (a7 : FVec F S64 .f32) (a8 : FVec F S64x64 .f32) (a9 : FVec F S64 .f32)
    (a10 a11 : IVec S800000 32)
    (h : fn (F := F) a0 a1 a2 a3 a4 a5 a6 a7 a8 a9 a10 a11 = fun _ => 1#1) (e : Fin 800000) :
    0 ≤ (a10 (ix1 e)).toInt ∧ (a10 (ix1 e)).toInt < 50000 := by
  have h0 := congrFun h ix0
  dsimp only [fn, fn_part1, fn_part2, fn_part3] at h0
  obtain ⟨h1, hlt⟩ := IntOp.andi_eq_one.1 h0
  obtain ⟨-, hge⟩ := IntOp.andi_eq_one.1 h1
  have g := Host.reduce_andi_all _ _ _ _ _ hge (ix1 e)
  have l := Host.reduce_andi_all _ _ _ _ _ hlt (ix1 e)
  have g' : IntOp.cmpi .sge (a10 (ix1 e)) 0#32 = 1#1 := g
  have l' : IntOp.cmpi .slt (a10 (ix1 e)) 50000#32 = 1#1 := l
  rw [IntOp.cmpi_sge] at g'
  rw [IntOp.cmpi_slt] at l'
  exact ⟨by simpa using g', by simpa using l'⟩

end Cert.Pre_finite_inputs.Hand

end
-- ==== Proof.Spec.lean ====
/-
  The message-passing layer as index-level functions over the extended reals, one row at a time, in the two
  associations the programs use, and the whole result as one function of the argument arrays.

  A row of the message network: from the gathered source features `s` (64 entries) and the edge features `f` (32
  entries), layer `l` computes the hidden units  h_l k = max (Σ_a s a · Wn l a k + Σ_a f a · We l a k + b1 l k) 0
  and the message is  Σ_l (Σ_k h_l k · W2 l k j + b2 l j).  The reference multiplies the concatenated row of 96 entries
  by the whole first-layer matrix; the sum over 96 entries splits into the sum over the first 64 and the last 32, and
  the additions are re-associated: both hold on the extended reals without any finiteness, since there addition is
  a commutative monoid.  The update network is one such layer from the node's own features and its normalised aggregate.
-/
import Idealize.ShloMosaic.PureOps.Ideal
import Idealize.ShloMosaic.Lib.ValueIdx
import Mathlib.Algebra.BigOperators.Fin

noncomputable section

open scoped BigOperators

namespace Cert.Spec

open Idealize.ShloMosaic

/-- Two rows laid end to end. -/
def cat {A B : Nat} (s : Fin A → EReal) (f : Fin B → EReal) (a : Fin (A + B)) : EReal :=
  if h : a.val < A then s ⟨a.val, h⟩ else f ⟨a.val - A, by have := a.isLt; omega⟩

/-- A hidden unit from the two pieces of a row, each against its own block of the first-layer matrix. -/
def hidK {A B : Nat} (s : Fin A → EReal) (f : Fin B → EReal) (wn : Fin A → Fin 64 → EReal) (we : Fin B → Fin 64 → EReal)
    (b : Fin 64 → EReal) (k : Fin 64) : EReal :=
  max (((∑ a, s a * wn a k) + ∑ a, f a * we a k) + b k) 0

/-- A hidden unit from the whole row against the whole first-layer matrix. -/
def hidR {C : Nat} (x : Fin C → EReal) (w : Fin C → Fin 64 → EReal) (b : Fin 64 → EReal) (k : Fin 64) : EReal :=
  max ((∑ a, x a * w a k) + b k) 0

/-- The message of one edge, in the kernel's association: the two layers' outputs and biases added on in turn. -/
def msgRowK (s : Fin 64 → EReal) (f : Fin 32 → EReal) (wn : Fin 2 → Fin 64 → Fin 64 → EReal)
    (we : Fin 2 → Fin 32 → Fin 64 → EReal) (b1 : Fin 2 → Fin 64 → EReal) (w2 : Fin 2 → Fin 64 → Fin 64 → EReal)
    (b2 : Fin 2 → Fin 64 → EReal) (j : Fin 64) : EReal :=
  (((0 + ∑ k, hidK s f (wn 0) (we 0) (b1 0) k * w2 0 k j) + b2 0 j)
    + ∑ k, hidK s f (wn 1) (we 1) (b1 1) k * w2 1 k j) + b2 1 j

/-- The message of one edge, in the reference's association: each layer's output with its bias, the layers added. -/
def msgRowR (x : Fin 96 → EReal) (w1 : Fin 2 → Fin 96 → Fin 64 → EReal) (b1 : Fin 2 → Fin 64 → EReal)
    (w2 : Fin 2 → Fin 64 → Fin 64 → EReal) (b2 : Fin 2 → Fin 64 → EReal) (j : Fin 64) : EReal :=
  (0 + ((∑ k, hidR x (w1 0) (b1 0) k * w2 0 k j) + b2 0 j)) + ((∑ k, hidR x (w1 1) (b1 1) k * w2 1 k j) + b2 1 j)

/-- A node's update, in the kernel's association. -/
def updRowK (n : Fin 64 → EReal) (g : Fin 64 → EReal) (un ua : Fin 64 → Fin 64 → EReal) (b1 : Fin 64 → EReal)
    (u2 : Fin 64 → Fin 64 → EReal) (b2 : Fin 64 → EReal) (j : Fin 64) : EReal :=
  (∑ k, hidK n g un ua b1 k * u2 k j) + b2 j

/-- A node's update, in the reference's association. -/
def updRowR (x : Fin 128 → EReal) (u1 : Fin 128 → Fin 64 → EReal) (b1 : Fin 64 → EReal)
    (u2 : Fin 64 → Fin 64 → EReal) (b2 : Fin 64 → EReal) (j : Fin 64) : EReal :=
  (∑ k, hidR x u1 b1 k * u2 k j) + b2 j

/-- The first piece of a row laid end to end. -/
private theorem cat_castAdd {A B : Nat} (s : Fin A → EReal) (f : Fin B → EReal) (a : Fin A) :
    cat s f (Fin.castAdd B a) = s a := by
  unfold cat
  have h : (Fin.castAdd B a).val < A := by simp
  rw [dif_pos h]
  rfl

/-- The second piece of a row laid end to end. -/
private theorem cat_natAdd {A B : Nat} (s : Fin A → EReal) (f : Fin B → EReal) (a : Fin B) :
    cat s f (Fin.natAdd A a) = f a := by
  unfold cat
  have h : ¬ (Fin.natAdd A a).val < A := by simp
  rw [dif_neg h]
  congr 1
  apply Fin.ext
  simp

/-- A sum over a row of two pieces is the sum over the first piece plus the sum over the second. -/
theorem sum_cat {A B : Nat} (s : Fin A → EReal) (f : Fin B → EReal) (w : Fin (A + B) → EReal) :
    ∑ a, cat s f a * w a = (∑ a : Fin A, s a * w (Fin.castAdd B a)) + ∑ a : Fin B, f a * w (Fin.natAdd A a) := by
  rw [Fin.sum_univ_add]
  simp only [cat_castAdd, cat_natAdd]

/-- The hidden unit of the whole row is the hidden unit of its two pieces. -/
theorem hidR_cat {A B : Nat} (s : Fin A → EReal) (f : Fin B → EReal) (w : Fin (A + B) → Fin 64 → EReal)
    (b : Fin 64 → EReal) (k : Fin 64) :
    hidR (cat s f) w b k = hidK s f (fun a k => w (Fin.castAdd B a) k) (fun a k => w (Fin.natAdd A a) k) b k := by
  unfold hidR hidK
  rw [sum_cat]

/-- The reference's message is the kernel's, the first-layer matrix cut into its first 64 and last 32 rows. -/
theorem msgRowR_cat (s : Fin 64 → EReal) (f : Fin 32 → EReal) (w1 : Fin 2 → Fin 96 → Fin 64 → EReal)
    (b1 : Fin 2 → Fin 64 → EReal) (w2 : Fin 2 → Fin 64 → Fin 64 → EReal) (b2 : Fin 2 → Fin 64 → EReal) (j : Fin 64) :
    msgRowR (cat s f) w1 b1 w2 b2 j
      = msgRowK s f (fun l a k => w1 l (Fin.castAdd 32 a) k) (fun l a k => w1 l (Fin.natAdd 64 a) k) b1 w2 b2 j := by
  have h : ∀ l k, hidR (cat s f) (w1 l) (b1 l) k
      = hidK s f (fun a k => w1 l (Fin.castAdd 32 a) k) (fun a k => w1 l (Fin.natAdd 64 a) k) (b1 l) k :=
    fun l k => hidR_cat s f (w1 l) (b1 l) k
  unfold msgRowR msgRowK
  simp only [h, zero_add, add_assoc]

/-- The reference's update is the kernel's, the first-layer matrix cut into its first and last 64 rows. -/
theorem updRowR_cat (n g : Fin 64 → EReal) (u1 : Fin 128 → Fin 64 → EReal) (b1 : Fin 64 → EReal)
    (u2 : Fin 64 → Fin 64 → EReal) (b2 : Fin 64 → EReal) (j : Fin 64) :
    updRowR (cat n g) u1 b1 u2 b2 j
      = updRowK n g (fun a k => u1 (Fin.castAdd 64 a) k) (fun a k => u1 (Fin.natAdd 64 a) k) b1 u2 b2 j := by
  have h : ∀ k, hidR (cat n g) u1 b1 k
      = hidK n g (fun a k => u1 (Fin.castAdd 64 a) k) (fun a k => u1 (Fin.natAdd 64 a) k) b1 k :=
    fun k => hidR_cat n g u1 b1 k
  unfold updRowR updRowK
  simp only [h]

end Cert.Spec

end
-- ==== Proof.SpecOut.lean ====
/-
  The whole layer as one function of the argument arrays, index by index, in the two associations.

  Edge `e` reads the node row `row src e`: the index word wrapped as jnp wraps a negative index, read signed and clamped
  into [0, 49999] (what a gather does with it).  Its message goes to the node whose number the destination word is, read
  signed; a destination outside [0, 49999] is dropped.  A node's aggregate is the sum of the messages that land on it,
  its degree the number of them (as a sum of ones), both onto zero; the aggregate is divided by the degree plus a small
  constant; the update network turns the node's own features and that quotient into the result row.
-/
import proofs.«424879_j24713241821695_4_alg».proof.Proof.Spec

noncomputable section

open scoped BigOperators

namespace Cert.Spec

open Idealize.ShloMosaic Idealize.ShloMosaic.ValueIdx

/-- An array of rank 1, 2, 3 read by its coordinates. -/
abbrev c1 {α : Type} {A : Nat} (x : (⟨1, ![A]⟩ : Shape).Idx → α) : Fin A → α := fun a => x (ix1 a)
abbrev c2 {α : Type} {A B : Nat} (x : (⟨2, ![A, B]⟩ : Shape).Idx → α) : Fin A → Fin B → α := fun a b => x (ix2 a b)
abbrev c3 {α : Type} {A B C : Nat} (x : (⟨3, ![A, B, C]⟩ : Shape).Idx → α) : Fin A → Fin B → Fin C → α :=
  fun a b c => x (ix3 a b c)

/-- jnp's reading of an index word into an axis of extent 50000: a negative word has the extent added. -/
def wrap (s : BitVec 32) : BitVec 32 := Scalar.select (IntOp.cmpi .slt s 0#32) (IntOp.addi s 50000#32) s

/-- The node row edge `e` gathers: the wrapped word, read signed, clamped into the table. -/
def row (src : Fin 800000 → BitVec 32) (e : Fin 800000) : Fin 50000 :=
  ⟨min (wrap (src e)).toInt.toNat 49999, by omega⟩

/-- The float words the programs share: one, and the small constant added to the degree. -/
abbrev one : EReal := Ideal.ofBits .f32 0x3F800000#32
abbrev eps : EReal := Ideal.ofBits .f32 0x322BCC77#32

/-- The sum, onto zero, of the messages whose destination word names node `n`. -/
def agg (msg : Fin 800000 → Fin 64 → EReal) (dst : Fin 800000 → BitVec 32) (n : Fin 50000) (a : Fin 64) : EReal :=
  0 + ∑ e : Fin 800000, if (dst e).toInt = (n.val : ℤ) then msg e a else 0

/-- The number of edges whose destination word names node `n`, as a sum of ones onto zero. -/
def deg (dst : Fin 800000 → BitVec 32) (n : Fin 50000) : EReal :=
  0 + ∑ e : Fin 800000, if (dst e).toInt = (n.val : ℤ) then one else 0

/-- The aggregate over the degree plus the small constant. -/
def nrm (msg : Fin 800000 → Fin 64 → EReal) (dst : Fin 800000 → BitVec 32) (n : Fin 50000) (a : Fin 64) : EReal :=
  Ideal.div (agg msg dst n a) (deg dst n + eps)

section
variable (nf : Fin 50000 → Fin 64 → EReal) (ef : Fin 800000 → Fin 32 → EReal)
  (w1 : Fin 2 → Fin 96 → Fin 64 → EReal) (b1 : Fin 2 → Fin 64 → EReal) (w2 : Fin 2 → Fin 64 → Fin 64 → EReal)
  (b2 : Fin 2 → Fin 64 → EReal) (u1 : Fin 128 → Fin 64 → EReal) (ub1 : Fin 64 → EReal) (u2 : Fin 64 → Fin 64 → EReal)
  (ub2 : Fin 64 → EReal) (src dst : Fin 800000 → BitVec 32)

/-- The first 64 and the last 32 rows of each first-layer message matrix; the first and last 64 rows of the update's. -/
abbrev w1n : Fin 2 → Fin 64 → Fin 64 → EReal := fun l a k => w1 l (Fin.castAdd 32 a) k
abbrev w1e : Fin 2 → Fin 32 → Fin 64 → EReal := fun l a k => w1 l (Fin.natAdd 64 a) k
abbrev u1n : Fin 64 → Fin 64 → EReal := fun a k => u1 (Fin.castAdd 64 a) k
abbrev u1a : Fin 64 → Fin 64 → EReal := fun a k => u1 (Fin.natAdd 64 a) k

/-- Every edge's message, in the kernel's association and in the reference's. -/
def msgK (e : Fin 800000) (j : Fin 64) : EReal :=
  msgRowK (nf (row src e)) (ef e) (w1n w1) (w1e w1) b1 w2 b2 j
def msgR (e : Fin 800000) (j : Fin 64) : EReal :=
  msgRowR (cat (nf (row src e)) (ef e)) w1 b1 w2 b2 j

/-- The result, in the kernel's association and in the reference's. -/
def outK (n : Fin 50000) (j : Fin 64) : EReal :=
  updRowK (nf n) (nrm (msgK nf ef w1 b1 w2 b2 src) dst n) (u1n u1) (u1a u1) ub1 u2 ub2 j
def outR (n : Fin 50000) (j : Fin 64) : EReal :=
  updRowR (cat (nf n) (nrm (msgR nf ef w1 b1 w2 b2 src) dst n)) u1 ub1 u2 ub2 j

/-- The two associations give one message. -/
theorem msgR_eq_msgK : msgR nf ef w1 b1 w2 b2 src = msgK nf ef w1 b1 w2 b2 src := by
  funext e j
  exact msgRowR_cat _ _ _ _ _ _ _

/-- The two associations give one result. -/
theorem outR_eq_outK (n : Fin 50000) (j : Fin 64) :
    outR nf ef w1 b1 w2 b2 u1 ub1 u2 ub2 src dst n j = outK nf ef w1 b1 w2 b2 u1 ub1 u2 ub2 src dst n j := by
  unfold outR outK
  rw [msgR_eq_msgK]
  exact updRowR_cat _ _ _ _ _ _ _
end

end Cert.Spec

end
-- ==== Proof.Pay.lean ====
/-
  What each kernel body stores, read at one element: row `r` of the stored block is the row function of row `r` of the
  two row-blocked inputs and of the whole weight and bias arrays.  Every matrix product is a sum over its one contracted
  axis onto a zero accumulator; a change of float format is the identity on the extended reals; the zero words denote 0.
-/
import proofs.«424879_j24713241821695_4_alg».proof.Proof.Gen.KernelIdeal.Frame
import proofs.«424879_j24713241821695_4_alg».proof.Proof.SpecOut
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

/-- The zero offsets of a whole-shape access, written as a literal vector, are the zero function (rank 2, rank 1). -/
private theorem zeros2 : (![0, 0] : Fin 2 → Nat) = fun _ => 0 := funext fun a => by fin_cases a <;> rfl
private theorem zeros1 : (![0] : Fin 1 → Nat) = fun _ => 0 := funext fun a => by fin_cases a <;> rfl

/-! The operand indices of the product of a [5000,64] block with a [64,64] matrix, axis by axis. -/
private theorem dot64_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem dot64_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem dot64_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem dot64_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a [5000,64] block with a [64,64] matrix onto the zero accumulator, at row `r`, column `j`:
    the sum over the contracted axis. -/
private theorem matmul64_apply (A : FVec Ideal S5000x64 .bf16) (B : FVec Ideal S64x64 .bf16) (r : Fin 5000) (j : Fin 64) :
    matmul (F := Ideal) dot_S5000x64_S64x64_S5000x64_1_0_0_1_n_n none A B (constant S5000x64 .f32 0x00000000#32) (ix2 r j)
      = ∑ k : Fin 64, A (ix2 r k) * B (ix2 k j) := by
  show FloatOps.matmul _ _ _ _ _ _ = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact dot64_lhs_0 _ _
    | ⟨1, _⟩ => exact (dot64_lhs_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (dot64_rhs_0 _ _).trans hk
    | ⟨1, _⟩ => exact dot64_rhs_1 _ _)
  rw [el, er]

/-- A row of 64 entries viewed as a [1,64] array and repeated down 5000 rows, at row `r`, column `j`: entry `j`. -/
private theorem biasRow_apply (b : FVec Ideal S64 .f32) (r : Fin 5000) (j : Fin 64) :
    broadcastTo S5000x64 (shapeCast S1x64 b shapeCasts_S64_S1x64) broadcasts_S1x64_S5000x64 (ix2 r j) = b (ix1 j) := by
  refine (broadcastTo_apply _ broadcasts_S1x64_S5000x64 (ix2 r j) (ix2 (0 : Fin 1) j) fun a => ?_).trans ?_
  · match a with
    | ⟨0, _⟩ => rfl
    | ⟨1, _⟩ => rfl
  · exact shapeCast_apply b shapeCasts_S64_S1x64 (ix2 (0 : Fin 1) j) (ix1 j)
      (by rw [Shape.rowMajor_val_one, Shape.rowMajor_val_two]; show j.val = 0 * 64 + j.val; omega)

/-! The operand indices of the product of a [5000,32] block with a [32,64] matrix, axis by axis. -/
private theorem dot32_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
private theorem dot32_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
private theorem dot32_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
private theorem dot32_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product of a [5000,32] block with a [32,64] matrix onto the zero accumulator, at row `r`, column `j`:
    the sum over the contracted axis. -/
private theorem matmul32_apply (A : FVec Ideal S5000x32 .bf16) (B : FVec Ideal S32x64 .bf16) (r : Fin 5000) (j : Fin 64) :
    matmul (F := Ideal) dot_S5000x32_S32x64_S5000x64_1_0_0_1_n_n none A B (constant S5000x64 .f32 0x00000000#32) (ix2 r j)
      = ∑ k : Fin 32, A (ix2 r k) * B (ix2 k j) := by
  show FloatOps.matmul _ _ _ _ _ _ = _
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 r j) ((contrEquiv1 dot_S5000x32_S32x64_S5000x64_1_0_0_1_n_n 32 rfl rfl).symm k) = ix2 r k := funext fun a => Fin.ext (by
    match a with
    | ⟨0, _⟩ => exact dot32_lhs_0 _ _
    | ⟨1, _⟩ => exact (dot32_lhs_1 _ _).trans hk)
  have er : dot_S5000x32_S32x64_S5000x64_1_0_0_1_n_n.rhsIdx (ix2 r j) ((contrEquiv1 dot_S5000x32_S32x64_S5000x64_1_0_0_1_n_n 32 rfl rfl).symm k) = ix2 k j := funext fun a => Fin.ext (by
    match a with
    | ⟨0, _⟩ => exact (dot32_rhs_0 _ _).trans hk
    | ⟨1, _⟩ => exact dot32_rhs_1 _ _)
  rw [el, er]

/-- Layer `o` of a [2,B,C] array, loaded as a [1,B,C] block, read at an index: the array at (o, ·, ·). -/
private theorem ld_layer3 {e : EltTy} {B C : Nat} (x : Vec Ideal (⟨3, ![2, B, C]⟩ : Shape) e) (o : Nat) (ho : o < 2)
    (inb : ∀ a, (![o, 0, 0] : Fin 3 → Nat) a + (⟨3, ![1, B, C]⟩ : Shape).size a ≤ (⟨3, ![2, B, C]⟩ : Shape).size a)
    (y : (⟨3, ![1, B, C]⟩ : Shape).Idx) :
    View.ld x (Rect.unit (s := (⟨3, ![2, B, C]⟩ : Shape)) ![o, 0, 0] (⟨3, ![1, B, C]⟩ : Shape).size inb) y
      = x (ix3 ⟨o, ho⟩ (y 1) (y 2)) := by
  show x _ = x _
  refine congrArg x (funext fun a => Fin.ext ?_)
  have h0 : (y 0).val = 0 := by have h : (y 0).val < 1 := (y 0).isLt; omega
  match a with
  | ⟨0, _⟩ => simp only [LoadRect.idx_apply, Rect.off_unit, Rect.stride_unit, Nat.one_mul]; show o + (y 0).val = o; omega
  | ⟨1, _⟩ => simp only [LoadRect.idx_apply, Rect.off_unit, Rect.stride_unit, Nat.one_mul]; show 0 + (y 1).val = (y 1).val; omega
  | ⟨2, _⟩ => simp only [LoadRect.idx_apply, Rect.off_unit, Rect.stride_unit, Nat.one_mul]; show 0 + (y 2).val = (y 2).val; omega

/-- Layer `o` of a [2,C] array, loaded as a [1,C] block, read at an index: the array at (o, ·). -/
private theorem ld_layer2 {e : EltTy} {C : Nat} (x : Vec Ideal (⟨2, ![2, C]⟩ : Shape) e) (o : Nat) (ho : o < 2)
    (inb : ∀ a, (![o, 0] : Fin 2 → Nat) a + (⟨2, ![1, C]⟩ : Shape).size a ≤ (⟨2, ![2, C]⟩ : Shape).size a)
    (y : (⟨2, ![1, C]⟩ : Shape).Idx) :
    View.ld x (Rect.unit (s := (⟨2, ![2, C]⟩ : Shape)) ![o, 0] (⟨2, ![1, C]⟩ : Shape).size inb) y
      = x (ix2 ⟨o, ho⟩ (y 1)) := by
  show x _ = x _
  refine congrArg x (funext fun a => Fin.ext ?_)
  have h0 : (y 0).val = 0 := by have h : (y 0).val < 1 := (y 0).isLt; omega
  match a with
  | ⟨0, _⟩ => simp only [LoadRect.idx_apply, Rect.off_unit, Rect.stride_unit, Nat.one_mul]; show o + (y 0).val = o; omega
  | ⟨1, _⟩ => simp only [LoadRect.idx_apply, Rect.off_unit, Rect.stride_unit, Nat.one_mul]; show 0 + (y 1).val = (y 1).val; omega

/-- A [1,64,64] block viewed as a [64,64] matrix, at (k, j): the block at (0, k, j). -/
private theorem mat64_of_layer_apply {α : Type} (v : S1x64x64.Idx → α) (k j : Fin 64) :
    shapeCast S64x64 v shapeCasts_S1x64x64_S64x64 (ix2 k j) = v (ix3 (0 : Fin 1) k j) :=
  shapeCast_apply v shapeCasts_S1x64x64_S64x64 (ix2 k j) (ix3 (0 : Fin 1) k j)
    (by rw [Shape.rowMajor_val_three, Shape.rowMajor_val_two]; show (0 * 64 + k.val) * 64 + j.val = k.val * 64 + j.val; omega)

/-- A [1,32,64] block viewed as a [32,64] matrix, at (k, j): the block at (0, k, j). -/
private theorem mat32_of_layer_apply {α : Type} (v : S1x32x64.Idx → α) (k : Fin 32) (j : Fin 64) :
    shapeCast S32x64 v shapeCasts_S1x32x64_S32x64 (ix2 k j) = v (ix3 (0 : Fin 1) k j) :=
  shapeCast_apply v shapeCasts_S1x32x64_S32x64 (ix2 k j) (ix3 (0 : Fin 1) k j)
    (by rw [Shape.rowMajor_val_three, Shape.rowMajor_val_two]; show (0 * 32 + k.val) * 64 + j.val = k.val * 64 + j.val; omega)

/-- A [1,64] block viewed as a row of 64 entries, at j: the block at (0, j). -/
private theorem row_of_layer_apply {α : Type} (v : S1x64.Idx → α) (j : Fin 64) :
    shapeCast S64 v shapeCasts_S1x64_S64 (ix1 j) = v (ix2 (0 : Fin 1) j) :=
  shapeCast_apply v shapeCasts_S1x64_S64 (ix1 j) (ix2 (0 : Fin 1) j)
    (by rw [Shape.rowMajor_val_one, Shape.rowMajor_val_two]; show 0 * 64 + j.val = j.val; omega)

/-- A hidden unit of the message network as the body computes it, from any two row blocks, any two first-layer
    matrices and any bias row, at row `r`, unit `k`. -/
private theorem hidden_apply (A : FVec Ideal S5000x64 .bf16) (E : FVec Ideal S5000x32 .bf16) (Wn : FVec Ideal S64x64 .bf16)
    (We : FVec Ideal S32x64 .bf16) (b : FVec Ideal S64 .f32) (r : Fin 5000) (k : Fin 64) :
    truncf .bf16 (maximumf (addf (addf
        (matmul dot_S5000x64_S64x64_S5000x64_1_0_0_1_n_n none A Wn (constant S5000x64 .f32 0x00000000#32))
        (matmul dot_S5000x32_S32x64_S5000x64_1_0_0_1_n_n none E We (constant S5000x64 .f32 0x00000000#32)))
        (broadcastTo S5000x64 (shapeCast S1x64 b shapeCasts_S64_S1x64) broadcasts_S1x64_S5000x64))
        (broadcast S5000x64 (FloatOps.ofBits (F := Ideal) FTy.f32 0x00000000#32))) bitsLt_bf16_f32 (ix2 r k)
      = max (((∑ a, A (ix2 r a) * Wn (ix2 a k)) + ∑ a, E (ix2 r a) * We (ix2 a k)) + b (ix1 k)) 0 := by
  rw [truncf_apply, maximumf_apply, addf_apply, addf_apply, matmul64_apply, matmul32_apply, biasRow_apply, broadcast_apply]
  rw [show (FloatOps.ofBits FTy.f32 0#32 : Ideal .f32) = 0 from Ideal.ofBits_zero_f32]

/-- Layer `o` of the message network as the body computes it, its weights the layer-`o` blocks of the weight arrays:
    the sum over the hidden units, at row `r`, column `j`. -/
private theorem layer_apply (x0 : Vec Ideal S5000x64 .f32) (x1 : Vec Ideal S5000x32 .f32) (x2 : Vec Ideal S2x64x64 .bf16)
    (x3 : Vec Ideal S2x32x64 .bf16) (x4 : Vec Ideal S2x64 .f32) (x5 : Vec Ideal S2x64x64 .bf16) (o : Nat) (ho : o < 2)
    (inb2 : ∀ a, (![o, 0, 0] : Fin 3 → Nat) a + S1x64x64.size a ≤ S2x64x64.size a)
    (inb3 : ∀ a, (![o, 0, 0] : Fin 3 → Nat) a + S1x32x64.size a ≤ S2x32x64.size a)
    (inb4 : ∀ a, (![o, 0] : Fin 2 → Nat) a + S1x64.size a ≤ S2x64.size a) (r : Fin 5000) (j : Fin 64) :
    (∑ k : Fin 64, truncf .bf16 (maximumf (addf (addf
        (matmul dot_S5000x64_S64x64_S5000x64_1_0_0_1_n_n none (truncf .bf16 x0 bitsLt_bf16_f32)
          (shapeCast S64x64 (View.ld x2 (Rect.unit (s := S2x64x64) ![o, 0, 0] S1x64x64.size inb2)) shapeCasts_S1x64x64_S64x64 : FVec Ideal S64x64 .bf16)
          (constant S5000x64 .f32 0x00000000#32))
        (matmul dot_S5000x32_S32x64_S5000x64_1_0_0_1_n_n none (truncf .bf16 x1 bitsLt_bf16_f32)
          (shapeCast S32x64 (View.ld x3 (Rect.unit (s := S2x32x64) ![o, 0, 0] S1x32x64.size inb3)) shapeCasts_S1x32x64_S32x64 : FVec Ideal S32x64 .bf16)
          (constant S5000x64 .f32 0x00000000#32)))
        (broadcastTo S5000x64 (shapeCast S1x64 (shapeCast S64 (View.ld x4 (Rect.unit (s := S2x64) ![o, 0] S1x64.size inb4))
          shapeCasts_S1x64_S64 : FVec Ideal S64 .f32) shapeCasts_S64_S1x64) broadcasts_S1x64_S5000x64))
        (broadcast S5000x64 (FloatOps.ofBits (F := Ideal) FTy.f32 0x00000000#32))) bitsLt_bf16_f32 (ix2 r k)
      * (shapeCast S64x64 (View.ld x5 (Rect.unit (s := S2x64x64) ![o, 0, 0] S1x64x64.size inb2)) shapeCasts_S1x64x64_S64x64 : FVec Ideal S64x64 .bf16) (ix2 k j))
      = ∑ k : Fin 64, hidK (fun a => (x0 : S5000x64.Idx → EReal) (ix2 r a)) (fun a => (x1 : S5000x32.Idx → EReal) (ix2 r a))
          (c3 (x2 : S2x64x64.Idx → EReal) ⟨o, ho⟩) (c3 (x3 : S2x32x64.Idx → EReal) ⟨o, ho⟩) (c2 (x4 : S2x64.Idx → EReal) ⟨o, ho⟩) k
          * c3 (x5 : S2x64x64.Idx → EReal) ⟨o, ho⟩ k j := by
  refine Finset.sum_congr rfl fun k _ => ?_
  rw [hidden_apply, mat64_of_layer_apply, row_of_layer_apply]
  rw [ld_layer3 x5 o ho inb2, ld_layer2 x4 o ho inb4]
  unfold hidK
  refine congrArg₂ (· * ·) (congrArg (max · 0) (congrArg₂ (· + ·) (congrArg₂ (· + ·) ?_ ?_) rfl)) rfl
  · refine Finset.sum_congr rfl fun a _ => ?_
    rw [mat64_of_layer_apply, ld_layer3 x2 o ho inb2]
    rfl
  · refine Finset.sum_congr rfl fun a _ => ?_
    rw [mat32_of_layer_apply, ld_layer3 x3 o ho inb3]
    rfl

/-- The message kernel's stored block at row `r`, column `j`. -/
theorem out0_7_apply (x0 : Vec Ideal S5000x64 .f32) (x1 : Vec Ideal S5000x32 .f32) (x2 : Vec Ideal S2x64x64 .bf16)
    (x3 : Vec Ideal S2x32x64 .bf16) (x4 : Vec Ideal S2x64 .f32) (x5 : Vec Ideal S2x64x64 .bf16) (x6 : Vec Ideal S2x64 .f32)
    (r : Fin 5000) (j : Fin 64) :
    (out0_7 (F := Ideal) x0 x1 x2 x3 x4 x5 x6 : S5000x64.Idx → EReal) (ix2 r j)
      = msgRowK (fun a => (x0 : S5000x64.Idx → EReal) (ix2 r a)) (fun a => (x1 : S5000x32.Idx → EReal) (ix2 r a))
          (c3 (x2 : S2x64x64.Idx → EReal)) (c3 (x3 : S2x32x64.Idx → EReal)) (c2 (x4 : S2x64.Idx → EReal))
          (c3 (x5 : S2x64x64.Idx → EReal)) (c2 (x6 : S2x64.Idx → EReal)) j := by
  unfold out0_7
  rw [View.canon_unit_zero zeros2]
  rw [View.ld_unit_zero (S := S5000x64) zeros2 _ x0, View.ld_unit_zero (S := S5000x32) zeros2 _ x1]
  unfold k0_pay1 k0_pay4 k0_pay5 k0_pay2 k0_pay3
  rw [shapeCast_self x0]
  dsimp only
  rw [addf_apply, addf_apply, addf_apply, addf_apply, broadcast_apply, matmul64_apply, matmul64_apply,
    biasRow_apply, biasRow_apply, row_of_layer_apply, row_of_layer_apply]
  unfold msgRowK
  refine congrArg₂ (· + ·) (congrArg₂ (· + ·) (congrArg₂ (· + ·) (congrArg₂ (· + ·) Ideal.ofBits_zero_f32 ?_) ?_) ?_) ?_
  · exact layer_apply x0 x1 x2 x3 x4 x5 0 (by decide) _ _ _ r j
  · exact ld_layer2 x6 0 (by decide) _ _
  · exact layer_apply x0 x1 x2 x3 x4 x5 1 (by decide) _ _ _ r j
  · exact ld_layer2 x6 1 (by decide) _ _

/-- The update kernel's stored block at row `r`, column `j`. -/
theorem out1_7_apply (x0 : Vec Ideal S5000x64 .f32) (x1 : Vec Ideal S5000x64 .f32) (x2 : Vec Ideal S64x64 .bf16)
    (x3 : Vec Ideal S64x64 .bf16) (x4 : Vec Ideal S64 .f32) (x5 : Vec Ideal S64x64 .bf16) (x6 : Vec Ideal S64 .f32)
    (r : Fin 5000) (j : Fin 64) :
    (out1_7 (F := Ideal) x0 x1 x2 x3 x4 x5 x6 : S5000x64.Idx → EReal) (ix2 r j)
      = updRowK (fun a => (x0 : S5000x64.Idx → EReal) (ix2 r a)) (fun a => (x1 : S5000x64.Idx → EReal) (ix2 r a))
          (c2 (x2 : S64x64.Idx → EReal)) (c2 (x3 : S64x64.Idx → EReal)) (c1 (x4 : S64.Idx → EReal))
          (c2 (x5 : S64x64.Idx → EReal)) (c1 (x6 : S64.Idx → EReal)) j := by
  unfold out1_7
  rw [View.canon_unit_zero zeros2]
  rw [View.ld_unit_zero (S := S5000x64) zeros2 _ x0, View.ld_unit_zero (S := S5000x64) zeros2 _ x1,
    View.ld_unit_zero (S := S64x64) zeros2 _ x2, View.ld_unit_zero (S := S64x64) zeros2 _ x3,
    View.ld_unit_zero (S := S64x64) zeros2 _ x5,
    View.ld_unit_zero (S := S64) zeros1 _ x4, View.ld_unit_zero (S := S64) zeros1 _ x6]
  unfold k1_pay1
  rw [shapeCast_self x2, shapeCast_self x3, shapeCast_self x5, shapeCast_self x1]
  rw [addf_apply, matmul64_apply, biasRow_apply]
  unfold updRowK
  refine congrArg (· + x6 (ix1 j)) (Finset.sum_congr rfl fun k _ => ?_)
  refine congrArg (· * x5 (ix2 k j)) ?_
  rw [truncf_apply, maximumf_apply, addf_apply, addf_apply, matmul64_apply, matmul64_apply, biasRow_apply, broadcast_apply]
  unfold hidK
  rw [show (FloatOps.ofBits FTy.f32 0#32 : Ideal .f32) = 0 from Ideal.ofBits_zero_f32]
  rfl

end Cert.KernelIdeal.Hand

end
-- ==== Proof.Reg.lean ====
/-
  What each region leaves in its result array, element by element, for any contents `V` of the buffers at the region's
  entry: the output's blocks of 5000 rows tile the array, point `t` writes rows 5000·t … 5000·t + 4999, and row `e` of
  the result is the row function of row `e` of the two row-blocked inputs (their blocks move with the output's) and of the
  weight and bias arrays, which every point reads whole.
-/
import proofs.«424879_j24713241821695_4_alg».proof.Proof.Pay

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (V : (c : Dev nD) → (b : Ref sig .tc) → Buf (Elt Ideal) ((c : Thread nD τ).loc b))

/-! ## Region 0: the message array -/

/-- The message row function moves along equal arguments. -/
private theorem msgRowK_congr {s s' : Fin 64 → EReal} {f f' : Fin 32 → EReal} {wn wn' : Fin 2 → Fin 64 → Fin 64 → EReal}
    {we we' : Fin 2 → Fin 32 → Fin 64 → EReal} {b1 b1' : Fin 2 → Fin 64 → EReal} {w2 w2' : Fin 2 → Fin 64 → Fin 64 → EReal}
    {b2 b2' : Fin 2 → Fin 64 → EReal} {j j' : Fin 64}
    (hs : s = s') (hf : f = f') (hwn : wn = wn') (hwe : we = we') (hb1 : b1 = b1') (hw2 : w2 = w2') (hb2 : b2 = b2') (hj : j = j') :
    msgRowK s f wn we b1 w2 b2 j = msgRowK s' f' wn' we' b1' w2' b2' j' := by
  subst hs hf hwn hwe hb1 hw2 hb2 hj; rfl

/-- The message array of region 0 as one function of the arrays at the region's entry: row by row the message row function. -/
private def msgArr (c : Dev nD) : S800000x64.Idx → EReal := fun i =>
  msgRowK (fun a => (V c main_v0 : S800000x64.Idx → EReal) (ix2 (i 0 : Fin 800000) a))
    (fun a => (V c main_arg1 : S800000x32.Idx → EReal) (ix2 (i 0 : Fin 800000) a))
    (c3 (V c main_v3 : S2x64x64.Idx → EReal)) (c3 (V c main_v4 : S2x32x64.Idx → EReal))
    (c2 (V c main_arg3 : S2x64.Idx → EReal)) (c3 (V c main_v2 : S2x64x64.Idx → EReal))
    (c2 (V c main_arg5 : S2x64.Idx → EReal)) (i 1 : Fin 64)

/-- The index maps of region 0 over its 160 points: the two row-blocked inputs move with the output along the rows and
    stay at column block 0; the weight and bias windows stay at block 0 on every axis. -/
private theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_7.index t (1 : Fin 2) = 0 ∧ win0_7.index t (0 : Fin 2) ≤ 159
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

/-- Every row block of the message array is some point's. -/
private theorem idx_onto0 : ∀ q : Fin 160, ∃ t : Fin cfg0.N, win0_7.index t = ![q.val, 0] :=
  (by decide +kernel : ∀ q : Fin 160, ∃ t : Fin grid0.N, win0_7.index t = ![q.val, 0])

/-- An index of the message array is in point `t`'s block iff each coordinate is in the block's range on its axis. -/
private theorem mem_blk0 (t : Fin cfg0.N) (i : S800000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v5).slice (win0_7.rect t)).set ↔ _
  rw [View.set_slice_whole, Rect.mem_set_unit]
  exact Iff.rfl

/-- The blocks of 5000 rows tile the message array: row `r` is in the block of point `r / 5000`. -/
private theorem cover0 (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ := idx_onto0 ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- What point `t` writes back is block `t` of the message array. -/
private theorem flushed0_eq (c : Dev nD) (t : Fin cfg0.N) :
    (dat0 (F := Ideal) V c).flushed 7 t = ((cfg0.win 7).blk t).view.read (Elt Ideal) (msgArr V c) := by
  show (cfg0.win 7).cut (grid0.coords t) ((dat0 (F := Ideal) V c).after 7 t) = _
  rw [after0_7]
  obtain ⟨e00, e01, e10, e11, e71, e70, e20, e21, e22, e30, e31, e32, e40, e41, e50, e51, e52, e60, e61⟩ := idx_facts0 t
  funext y
  have hy0 : (y 0).val < 5000 := (y 0).isLt
  have hy1 : (y 1).val < 64 := (y 1).isLt
  have hx : (cfg0.win 7).xinj (grid0.coords t) y = ix2 (⟨(y 0).val, hy0⟩ : Fin 5000) (⟨(y 1).val, hy1⟩ : Fin 64) := eq_ix2 _
  refine (congrArg (out0_7 (F := Ideal) (iblk0 V c 0 t) (iblk0 V c 1 t) (iblk0 V c 2 t) (iblk0 V c 3 t) (iblk0 V c 4 t) (iblk0 V c 5 t) (iblk0 V c 6 t)) hx).trans ?_
  refine (out0_7_apply _ _ _ _ _ _ _ _ _).trans ?_
  show _ = msgArr V c (((cfg0.win 7).blk t).view.emb y)
  unfold msgArr
  refine msgRowK_congr ?_ ?_ ?_ ?_ ?_ ?_ ?_ ?_
  · funext a
    show (V c main_v0 : S800000x64.Idx → EReal) (((cfg0.win 0).blk t).view.emb (ix2 (⟨(y 0).val, hy0⟩ : Fin 5000) a))
      = (V c main_v0 : S800000x64.Idx → EReal) (ix2 (((cfg0.win 7).blk t).view.emb y 0) a)
    refine congrArg _ (funext fun d => Fin.ext ?_)
    match d with
    | ⟨0, _⟩ => show win0_0.index t (0 : Fin 2) * 5000 + 1 * (y 0).val = win0_7.index t (0 : Fin 2) * 5000 + 1 * (y 0).val; omega
    | ⟨1, _⟩ => show win0_0.index t (1 : Fin 2) * 64 + 1 * a.val = a.val; omega
  · funext a
    show (V c main_arg1 : S800000x32.Idx → EReal) (((cfg0.win 1).blk t).view.emb (ix2 (⟨(y 0).val, hy0⟩ : Fin 5000) a))
      = (V c main_arg1 : S800000x32.Idx → EReal) (ix2 (((cfg0.win 7).blk t).view.emb y 0) a)
    refine congrArg _ (funext fun d => Fin.ext ?_)
    match d with
    | ⟨0, _⟩ => show win0_1.index t (0 : Fin 2) * 5000 + 1 * (y 0).val = win0_7.index t (0 : Fin 2) * 5000 + 1 * (y 0).val; omega
    | ⟨1, _⟩ => show win0_1.index t (1 : Fin 2) * 32 + 1 * a.val = a.val; omega
  · have h : (iblk0 V c 2 t : S2x64x64.Idx → EReal) = (V c main_v3 : S2x64x64.Idx → EReal) := by
      funext z
      show (V c main_v3 : S2x64x64.Idx → EReal) (((cfg0.win 2).blk t).view.emb z) = (V c main_v3 : S2x64x64.Idx → EReal) z
      refine congrArg _ (funext fun d => Fin.ext ?_)
      match d with
      | ⟨0, _⟩ => show win0_2.index t (0 : Fin 3) * 2 + 1 * (z 0).val = (z 0).val; omega
      | ⟨1, _⟩ => show win0_2.index t (1 : Fin 3) * 64 + 1 * (z 1).val = (z 1).val; omega
      | ⟨2, _⟩ => show win0_2.index t (2 : Fin 3) * 64 + 1 * (z 2).val = (z 2).val; omega
    exact congrArg c3 h
  · have h : (iblk0 V c 3 t : S2x32x64.Idx → EReal) = (V c main_v4 : S2x32x64.Idx → EReal) := by
      funext z
      show (V c main_v4 : S2x32x64.Idx → EReal) (((cfg0.win 3).blk t).view.emb z) = (V c main_v4 : S2x32x64.Idx → EReal) z
      refine congrArg _ (funext fun d => Fin.ext ?_)
      match d with
      | ⟨0, _⟩ => show win0_3.index t (0 : Fin 3) * 2 + 1 * (z 0).val = (z 0).val; omega
      | ⟨1, _⟩ => show win0_3.index t (1 : Fin 3) * 32 + 1 * (z 1).val = (z 1).val; omega
      | ⟨2, _⟩ => show win0_3.index t (2 : Fin 3) * 64 + 1 * (z 2).val = (z 2).val; omega
    exact congrArg c3 h
  · have h : (iblk0 V c 4 t : S2x64.Idx → EReal) = (V c main_arg3 : S2x64.Idx → EReal) := by
      funext z
      show (V c main_arg3 : S2x64.Idx → EReal) (((cfg0.win 4).blk t).view.emb z) = (V c main_arg3 : S2x64.Idx → EReal) z
      refine congrArg _ (funext fun d => Fin.ext ?_)
      match d with
      | ⟨0, _⟩ => show win0_4.index t (0 : Fin 2) * 2 + 1 * (z 0).val = (z 0).val; omega
      | ⟨1, _⟩ => show win0_4.index t (1 : Fin 2) * 64 + 1 * (z 1).val = (z 1).val; omega
    exact congrArg c2 h
  · have h : (iblk0 V c 5 t : S2x64x64.Idx → EReal) = (V c main_v2 : S2x64x64.Idx → EReal) := by
      funext z
      show (V c main_v2 : S2x64x64.Idx → EReal) (((cfg0.win 5).blk t).view.emb z) = (V c main_v2 : S2x64x64.Idx → EReal) z
      refine congrArg _ (funext fun d => Fin.ext ?_)
      match d with
      | ⟨0, _⟩ => show win0_5.index t (0 : Fin 3) * 2 + 1 * (z 0).val = (z 0).val; omega
      | ⟨1, _⟩ => show win0_5.index t (1 : Fin 3) * 64 + 1 * (z 1).val = (z 1).val; omega
      | ⟨2, _⟩ => show win0_5.index t (2 : Fin 3) * 64 + 1 * (z 2).val = (z 2).val; omega
    exact congrArg c3 h
  · have h : (iblk0 V c 6 t : S2x64.Idx → EReal) = (V c main_arg5 : S2x64.Idx → EReal) := by
      funext z
      show (V c main_arg5 : S2x64.Idx → EReal) (((cfg0.win 6).blk t).view.emb z) = (V c main_arg5 : S2x64.Idx → EReal) z
      refine congrArg _ (funext fun d => Fin.ext ?_)
      match d with
      | ⟨0, _⟩ => show win0_6.index t (0 : Fin 2) * 2 + 1 * (z 0).val = (z 0).val; omega
      | ⟨1, _⟩ => show win0_6.index t (1 : Fin 2) * 64 + 1 * (z 1).val = (z 1).val; omega
    exact congrArg c2 h
  · exact Fin.ext (show (y 1).val = win0_7.index t (1 : Fin 2) * 64 + 1 * (y 1).val by omega)

/-- The message array after region 0 is the message array of the entry arrays. -/
private theorem arr0_eq (c : Dev nD) : (dat0 (F := Ideal) V c).arrAt 7 cfg0.N = msgArr V c :=
  (dat0 (F := Ideal) V c).arrAt_eq_of_cover 7 (msgArr V c) (fun t _ => flushed0_eq V c t) cover0

/-- The message array after region 0. -/
theorem final0 (c : Dev nD) (e : Fin 800000) (j : Fin 64) :
    ((dat0 (F := Ideal) V c).arrAt 7 cfg0.N : S800000x64.Idx → EReal) (ix2 e j)
      = msgRowK (fun a => (V c main_v0 : S800000x64.Idx → EReal) (ix2 e a))
          (fun a => (V c main_arg1 : S800000x32.Idx → EReal) (ix2 e a))
          (c3 (V c main_v3 : S2x64x64.Idx → EReal)) (c3 (V c main_v4 : S2x32x64.Idx → EReal))
          (c2 (V c main_arg3 : S2x64.Idx → EReal)) (c3 (V c main_v2 : S2x64x64.Idx → EReal))
          (c2 (V c main_arg5 : S2x64.Idx → EReal)) j := by
  rw [arr0_eq]
  rfl

/-! ## Region 1: the result array -/

/-- The update row function moves along equal arguments. -/
private theorem updRowK_congr {s s' g g' : Fin 64 → EReal} {un un' ua ua' : Fin 64 → Fin 64 → EReal} {b1 b1' : Fin 64 → EReal}
    {u2 u2' : Fin 64 → Fin 64 → EReal} {b2 b2' : Fin 64 → EReal} {j j' : Fin 64}
    (hs : s = s') (hg : g = g') (hun : un = un') (hua : ua = ua') (hb1 : b1 = b1') (hu2 : u2 = u2') (hb2 : b2 = b2') (hj : j = j') :
    updRowK s g un ua b1 u2 b2 j = updRowK s' g' un' ua' b1' u2' b2' j' := by
  subst hs hg hun hua hb1 hu2 hb2 hj; rfl

/-- The result array of region 1 as one function of the arrays at the region's entry: row by row the update row function. -/
private def updArr (c : Dev nD) : S50000x64.Idx → EReal := fun i =>
  updRowK (fun a => (V c main_arg0 : S50000x64.Idx → EReal) (ix2 (i 0 : Fin 50000) a))
    (fun a => (V c main_v16 : S50000x64.Idx → EReal) (ix2 (i 0 : Fin 50000) a))
    (c2 (V c main_v19 : S64x64.Idx → EReal)) (c2 (V c main_v20 : S64x64.Idx → EReal))
    (c1 (V c main_arg7 : S64.Idx → EReal)) (c2 (V c main_v18 : S64x64.Idx → EReal))
    (c1 (V c main_arg9 : S64.Idx → EReal)) (i 1 : Fin 64)

/-- The index maps of region 1 over its ten points: the two row-blocked inputs move with the output along the rows and
    stay at column block 0; the weight and bias windows stay at block 0 on every axis. -/
private theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_7.index t (1 : Fin 2) = 0 ∧ win1_7.index t (0 : Fin 2) ≤ 9
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- Every row block of the result is some point's. -/
private theorem idx_onto1 : ∀ q : Fin 10, ∃ t : Fin cfg1.N, win1_7.index t = ![q.val, 0] :=
  (by decide +kernel : ∀ q : Fin 10, ∃ t : Fin grid1.N, win1_7.index t = ![q.val, 0])

/-- An index of the result array is in point `t`'s block iff each coordinate is in the block's range on its axis. -/
private theorem mem_blk1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v21).slice (win1_7.rect t)).set ↔ _
  rw [View.set_slice_whole, Rect.mem_set_unit]
  exact Iff.rfl

/-- The blocks of 5000 rows tile the result: row `r` is in the block of point `r / 5000`. -/
private theorem cover1 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ := idx_onto1 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- What point `t` writes back is block `t` of the update array. -/
private theorem flushed1_eq (c : Dev nD) (t : Fin cfg1.N) :
    (dat1 (F := Ideal) V c).flushed 7 t = ((cfg1.win 7).blk t).view.read (Elt Ideal) (updArr V c) := by
  show (cfg1.win 7).cut (grid1.coords t) ((dat1 (F := Ideal) V c).after 7 t) = _
  rw [after1_7]
  obtain ⟨e00, e01, e10, e11, e71, e70, e20, e21, e30, e31, e40, e50, e51, e60⟩ := idx_facts1 t
  funext y
  have hy0 : (y 0).val < 5000 := (y 0).isLt
  have hy1 : (y 1).val < 64 := (y 1).isLt
  have hx : (cfg1.win 7).xinj (grid1.coords t) y = ix2 (⟨(y 0).val, hy0⟩ : Fin 5000) (⟨(y 1).val, hy1⟩ : Fin 64) := eq_ix2 _
  refine (congrArg (out1_7 (F := Ideal) (iblk1 V c 0 t) (iblk1 V c 1 t) (iblk1 V c 2 t) (iblk1 V c 3 t) (iblk1 V c 4 t) (iblk1 V c 5 t) (iblk1 V c 6 t)) hx).trans ?_
  refine (out1_7_apply _ _ _ _ _ _ _ _ _).trans ?_
  show _ = updArr V c (((cfg1.win 7).blk t).view.emb y)
  unfold updArr
  refine updRowK_congr ?_ ?_ ?_ ?_ ?_ ?_ ?_ ?_
  · funext a
    show (V c main_arg0 : S50000x64.Idx → EReal) (((cfg1.win 0).blk t).view.emb (ix2 (⟨(y 0).val, hy0⟩ : Fin 5000) a))
      = (V c main_arg0 : S50000x64.Idx → EReal) (ix2 (((cfg1.win 7).blk t).view.emb y 0) a)
    refine congrArg _ (funext fun d => Fin.ext ?_)
    match d with
    | ⟨0, _⟩ => show win1_0.index t (0 : Fin 2) * 5000 + 1 * (y 0).val = win1_7.index t (0 : Fin 2) * 5000 + 1 * (y 0).val; omega
    | ⟨1, _⟩ => show win1_0.index t (1 : Fin 2) * 64 + 1 * a.val = a.val; omega
  · funext a
    show (V c main_v16 : S50000x64.Idx → EReal) (((cfg1.win 1).blk t).view.emb (ix2 (⟨(y 0).val, hy0⟩ : Fin 5000) a))
      = (V c main_v16 : S50000x64.Idx → EReal) (ix2 (((cfg1.win 7).blk t).view.emb y 0) a)
    refine congrArg _ (funext fun d => Fin.ext ?_)
    match d with
    | ⟨0, _⟩ => show win1_1.index t (0 : Fin 2) * 5000 + 1 * (y 0).val = win1_7.index t (0 : Fin 2) * 5000 + 1 * (y 0).val; omega
    | ⟨1, _⟩ => show win1_1.index t (1 : Fin 2) * 64 + 1 * a.val = a.val; omega
  · have h : (iblk1 V c 2 t : S64x64.Idx → EReal) = (V c main_v19 : S64x64.Idx → EReal) := by
      funext z
      show (V c main_v19 : S64x64.Idx → EReal) (((cfg1.win 2).blk t).view.emb z) = (V c main_v19 : S64x64.Idx → EReal) z
      refine congrArg _ (funext fun d => Fin.ext ?_)
      match d with
      | ⟨0, _⟩ => show win1_2.index t (0 : Fin 2) * 64 + 1 * (z 0).val = (z 0).val; omega
      | ⟨1, _⟩ => show win1_2.index t (1 : Fin 2) * 64 + 1 * (z 1).val = (z 1).val; omega
    exact congrArg c2 h
  · have h : (iblk1 V c 3 t : S64x64.Idx → EReal) = (V c main_v20 : S64x64.Idx → EReal) := by
      funext z
      show (V c main_v20 : S64x64.Idx → EReal) (((cfg1.win 3).blk t).view.emb z) = (V c main_v20 : S64x64.Idx → EReal) z
      refine congrArg _ (funext fun d => Fin.ext ?_)
      match d with
      | ⟨0, _⟩ => show win1_3.index t (0 : Fin 2) * 64 + 1 * (z 0).val = (z 0).val; omega
      | ⟨1, _⟩ => show win1_3.index t (1 : Fin 2) * 64 + 1 * (z 1).val = (z 1).val; omega
    exact congrArg c2 h
  · have h : (iblk1 V c 4 t : S64.Idx → EReal) = (V c main_arg7 : S64.Idx → EReal) := by
      funext z
      show (V c main_arg7 : S64.Idx → EReal) (((cfg1.win 4).blk t).view.emb z) = (V c main_arg7 : S64.Idx → EReal) z
      refine congrArg _ (funext fun d => Fin.ext ?_)
      match d with
      | ⟨0, _⟩ => show win1_4.index t (0 : Fin 1) * 64 + 1 * (z 0).val = (z 0).val; omega
    exact congrArg c1 h
  · have h : (iblk1 V c 5 t : S64x64.Idx → EReal) = (V c main_v18 : S64x64.Idx → EReal) := by
      funext z
      show (V c main_v18 : S64x64.Idx → EReal) (((cfg1.win 5).blk t).view.emb z) = (V c main_v18 : S64x64.Idx → EReal) z
      refine congrArg _ (funext fun d => Fin.ext ?_)
      match d with
      | ⟨0, _⟩ => show win1_5.index t (0 : Fin 2) * 64 + 1 * (z 0).val = (z 0).val; omega
      | ⟨1, _⟩ => show win1_5.index t (1 : Fin 2) * 64 + 1 * (z 1).val = (z 1).val; omega
    exact congrArg c2 h
  · have h : (iblk1 V c 6 t : S64.Idx → EReal) = (V c main_arg9 : S64.Idx → EReal) := by
      funext z
      show (V c main_arg9 : S64.Idx → EReal) (((cfg1.win 6).blk t).view.emb z) = (V c main_arg9 : S64.Idx → EReal) z
      refine congrArg _ (funext fun d => Fin.ext ?_)
      match d with
      | ⟨0, _⟩ => show win1_6.index t (0 : Fin 1) * 64 + 1 * (z 0).val = (z 0).val; omega
    exact congrArg c1 h
  · exact Fin.ext (show (y 1).val = win1_7.index t (1 : Fin 2) * 64 + 1 * (y 1).val by omega)

/-- The result array after region 1 is the update array. -/
private theorem arr1_eq (c : Dev nD) : (dat1 (F := Ideal) V c).arrAt 7 cfg1.N = updArr V c :=
  (dat1 (F := Ideal) V c).arrAt_eq_of_cover 7 (updArr V c) (fun t _ => flushed1_eq V c t) cover1

/-- The result array after region 1. -/
theorem final1 (c : Dev nD) (n : Fin 50000) (j : Fin 64) :
    ((dat1 (F := Ideal) V c).arrAt 7 cfg1.N : S50000x64.Idx → EReal) (ix2 n j)
      = updRowK (fun a => (V c main_arg0 : S50000x64.Idx → EReal) (ix2 n a))
          (fun a => (V c main_v16 : S50000x64.Idx → EReal) (ix2 n a))
          (c2 (V c main_v19 : S64x64.Idx → EReal)) (c2 (V c main_v20 : S64x64.Idx → EReal))
          (c1 (V c main_arg7 : S64.Idx → EReal)) (c2 (V c main_v18 : S64x64.Idx → EReal))
          (c1 (V c main_arg9 : S64.Idx → EReal)) j := by
  rw [arr1_eq]
  rfl

end Cert.KernelIdeal.Hand

end
-- ==== Proof.Args.lean ====
/-
  The argument arrays read by their coordinates, and the index range the precondition gives the source indices.
-/
import proofs.«424879_j24713241821695_4_alg».proof.Proof.Gen.KernelIdeal.Frame
import proofs.«424879_j24713241821695_4_alg».proof.Proof.SpecOut
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec
variable (m : (ℓ : Loc nD τ sig) → Buf (Elt Ideal) ℓ) (ρ : Dev nD → PrngReg)

/-- The argument arrays by their coordinates. -/
abbrev aNf (c : Dev nD) : Fin 50000 → Fin 64 → EReal := c2 (m ((c.tc : Thread nD τ).loc main_arg0) : S50000x64.Idx → EReal)
abbrev aEf (c : Dev nD) : Fin 800000 → Fin 32 → EReal := c2 (m ((c.tc : Thread nD τ).loc main_arg1) : S800000x32.Idx → EReal)
abbrev aW1 (c : Dev nD) : Fin 2 → Fin 96 → Fin 64 → EReal := c3 (m ((c.tc : Thread nD τ).loc main_arg2) : S2x96x64.Idx → EReal)
abbrev aB1 (c : Dev nD) : Fin 2 → Fin 64 → EReal := c2 (m ((c.tc : Thread nD τ).loc main_arg3) : S2x64.Idx → EReal)
abbrev aW2 (c : Dev nD) : Fin 2 → Fin 64 → Fin 64 → EReal := c3 (m ((c.tc : Thread nD τ).loc main_arg4) : S2x64x64.Idx → EReal)
abbrev aB2 (c : Dev nD) : Fin 2 → Fin 64 → EReal := c2 (m ((c.tc : Thread nD τ).loc main_arg5) : S2x64.Idx → EReal)
abbrev aU1 (c : Dev nD) : Fin 128 → Fin 64 → EReal := c2 (m ((c.tc : Thread nD τ).loc main_arg6) : S128x64.Idx → EReal)
abbrev aUb1 (c : Dev nD) : Fin 64 → EReal := c1 (m ((c.tc : Thread nD τ).loc main_arg7) : S64.Idx → EReal)
abbrev aU2 (c : Dev nD) : Fin 64 → Fin 64 → EReal := c2 (m ((c.tc : Thread nD τ).loc main_arg8) : S64x64.Idx → EReal)
abbrev aUb2 (c : Dev nD) : Fin 64 → EReal := c1 (m ((c.tc : Thread nD τ).loc main_arg9) : S64.Idx → EReal)
abbrev aSrc (c : Dev nD) : Fin 800000 → BitVec 32 := c1 (m ((c.tc : Thread nD τ).loc main_arg10) : S800000.Idx → BitVec 32)
abbrev aDst (c : Dev nD) : Fin 800000 → BitVec 32 := c1 (m ((c.tc : Thread nD τ).loc main_arg11) : S800000.Idx → BitVec 32)

/-- Every source index names a row of the table. -/
def SrcInRange (c : Dev nD) : Prop := ∀ e : Fin 800000, 0 ≤ (aSrc m c e).toInt ∧ (aSrc m c e).toInt < 50000

end Cert.KernelIdeal.Hand

end
-- ==== Proof.HostK0.lean ====
/-
  What the buffers hold when region 0 is entered, read at one element from the argument arrays: the gathered source
  rows (under the index range, the row the wrapped, clamped index names: the fill a row outside the table would get is
  never selected), the first-layer message matrices cut into their first 64 and last 32 rows and the second-layer
  matrices, each after a change of float format, which is the identity on the extended reals; the arguments unchanged.
-/
import proofs.«424879_j24713241821695_4_alg».proof.Proof.Args
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws
import Idealize.ShloMosaic.PureOps.Reduce

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec
variable (m : (ℓ : Loc nD τ sig) → Buf (Elt Ideal) ℓ) (ρ : Dev nD → PrngReg)

/-! ## Three general facts: a reduction by "and" of ones, a row gather read at an element, words in the range -/

/-- A left fold by "and" from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by "and" from 1 of an array of ones is 1 at every result index. -/
private theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun n _ => hx n

/-- A gather of whole rows of a two-axis table, one start index per result row: result element (p, q) is the table at
    the row the start index names, read signed and clamped into the table, and column q. -/
private theorem gather_row {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p 0)).toInt.toNat (N - 1), by omega⟩ q) := by
  unfold Host.gather
  congr 1
  funext a
  apply Fin.ext
  have hb : ∀ a : Fin 2, a ∉ d.operandBatchingDims := by intro a; rw [hob]; exact List.not_mem_nil
  have key : ∀ (l : List (Fin 2)) (v : Fin 2) (k : Nat) (hk : k < l.length), l = [v] → l[k]'hk = v := by
    intro l v k hk hl
    subst hl
    have h0 : k = 0 := by simpa using hk
    subst h0
    rfl
  match a with
  | ⟨0, _⟩ =>
    -- the row axis: collapsed, and the one axis the start index names
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 p 0)).toInt.toNat (N - 1)
    rw [hsl]
    congr 3
    congr 1
    funext b
    match b with
    | ⟨0, _⟩ =>
      -- the start indices' row is the result's row: its one batch axis
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [key _ 0 _ _ hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the result's offset axis, no start index
    have hm : (1 : Fin 2) ∉ d.startIndexMap := by rw [hsim]; simp
    have hk : (1 : Fin 2) ∈ d.sKept := by rw [GatherDims.mem_sKept, hcoll, hob]; simp
    show d.start (ix2 p q) idx 1 + d.batchCoord (ix2 p q) 1 + d.offCoord (ix2 p q) 1 = q.val
    rw [GatherDims.batchCoord_eq_zero _ _ _ (hb _)]
    unfold GatherDims.start
    rw [dif_neg hm]
    unfold GatherDims.offCoord
    rw [dif_pos hk]
    simp only [Nat.zero_add, Nat.add_zero]
    rw [key _ 1 _ _ hoff]

/-- A word in [0, 50000) read signed is its own wrapping and passes both bound tests. -/
private theorem wrap_in_range (s : BitVec 32) (h0 : 0 ≤ s.toInt) (h1 : s.toInt < 50000) :
    wrap s = s ∧ IntOp.andi (IntOp.cmpi .sge s 0#32) (IntOp.cmpi .sle s 49999#32) = 1#1 := by
  have z : (0#32 : BitVec 32).toInt = 0 := by decide
  have t : (49999#32 : BitVec 32).toInt = 49999 := by decide
  have hslt : s.slt 0#32 = false := by
    rw [Bool.eq_false_iff]; intro hh
    rw [BitVec.slt_iff_toInt_lt] at hh
    omega
  have hsge : (0#32 : BitVec 32).sle s = true := by
    rw [BitVec.sle_iff_toInt_le]; omega
  have hsle : s.sle 49999#32 = true := by
    rw [BitVec.sle_iff_toInt_le]; omega
  constructor
  · unfold wrap
    have e : IntOp.cmpi .slt s 0#32 = 0#1 := by simp only [IntOp.cmpi, hslt]; rfl
    rw [e, select_zero]
  · simp only [IntOp.cmpi, hsge, hsle]; rfl

/-! ## A buffer a stretch of operations does not write -/

/-- Closes `after ops V b = V b` for a literal stretch `ops` none of whose operations writes `b`. -/
local macro "not_written " ops:ident : tactic =>
  `(tactic| (refine StableHlo.after_of_forall_not_mem _ _ (List.forall_iff_forall_mem.mp ?_)
             simp only [$ops:ident, List.drop_succ_cons, List.drop_zero, List.take_succ_cons, List.take_zero, List.Forall,
               StableHlo.nullary_writes, StableHlo.unary_writes, StableHlo.binary_writes, StableHlo.ternary_writes,
               Finset.mem_singleton]
             repeat' apply And.intro
             all_goals exact StableHlo.devRef_ne_of_ne (by decide)))

/-! ## At region 0's entry -/

theorem v2_main_arg1 (c : Dev nD) : V2 m ρ c main_arg1 = m ((c.tc : Thread nD τ).loc main_arg1) :=
  calc W2 m ρ c (Proc.devRef .tc main_arg1)
    _ = W1 m ρ c (Proc.devRef .tc main_arg1) := by not_written hostOps0_1
    _ = W0 m ρ c (Proc.devRef .tc main_arg1) := by not_written hostOps0
    _ = m ((c.tc : Thread nD τ).loc main_arg1) := rfl
theorem v2_main_arg3 (c : Dev nD) : V2 m ρ c main_arg3 = m ((c.tc : Thread nD τ).loc main_arg3) :=
  calc W2 m ρ c (Proc.devRef .tc main_arg3)
    _ = W1 m ρ c (Proc.devRef .tc main_arg3) := by not_written hostOps0_1
    _ = W0 m ρ c (Proc.devRef .tc main_arg3) := by not_written hostOps0
    _ = m ((c.tc : Thread nD τ).loc main_arg3) := rfl
theorem v2_main_arg5 (c : Dev nD) : V2 m ρ c main_arg5 = m ((c.tc : Thread nD τ).loc main_arg5) :=
  calc W2 m ρ c (Proc.devRef .tc main_arg5)
    _ = W1 m ρ c (Proc.devRef .tc main_arg5) := by not_written hostOps0_1
    _ = W0 m ρ c (Proc.devRef .tc main_arg5) := by not_written hostOps0
    _ = m ((c.tc : Thread nD τ).loc main_arg5) := rfl

/-- The message weights as launched survive the first stretch. -/
private theorem w1_main_arg2 (c : Dev nD) :
    W1 m ρ c (Proc.devRef .tc main_arg2) = m ((c.tc : Thread nD τ).loc main_arg2) :=
  calc W1 m ρ c (Proc.devRef .tc main_arg2)
    _ = W0 m ρ c (Proc.devRef .tc main_arg2) := by not_written hostOps0
    _ = m ((c.tc : Thread nD τ).loc main_arg2) := rfl
private theorem w1_main_arg4 (c : Dev nD) :
    W1 m ρ c (Proc.devRef .tc main_arg4) = m ((c.tc : Thread nD τ).loc main_arg4) :=
  calc W1 m ρ c (Proc.devRef .tc main_arg4)
    _ = W0 m ρ c (Proc.devRef .tc main_arg4) := by not_written hostOps0
    _ = m ((c.tc : Thread nD τ).loc main_arg4) := rfl

theorem v2_main_v3 (c : Dev nD) (l : Fin 2) (a : Fin 64) (k : Fin 64) :
    (V2 m ρ c main_v3 : S2x64x64.Idx → EReal) (ix3 l a k) = w1n (aW1 m c) l a k := by
  -- the buffer is rows 0 to 63 of each first-layer matrix, after the change of format
  have key : ∀ V1 : Valuation τ sig (Elt Ideal),
      (StableHlo.after hostOps0_1 V1 (Proc.devRef .tc main_v3) : S2x64x64.Idx → EReal)
        = extractStridedSlice S2x64x64 ![0, 0, 0]
            (truncf (F := Ideal) .bf16 (V1 (Proc.devRef .tc main_arg2) : S2x96x64.Idx → EReal) Facts₀.bitsLt_bf16_f32)
            Facts₀.slices_S2x96x64_S2x64x64_0_0_0 := by
    intro V1
    dsimp only [hostOps0_1]
    after_results
  show (W2 m ρ c (Proc.devRef .tc main_v3) : S2x64x64.Idx → EReal) (ix3 l a k) = _
  rw [show W2 m ρ c (Proc.devRef .tc main_v3) = _ from key (W1 m ρ c), w1_main_arg2]
  rw [slice3_axis1_apply 0 _ _ l a k (Fin.castAdd 32 a) (by simp)]
  rfl

theorem v2_main_v4 (c : Dev nD) (l : Fin 2) (a : Fin 32) (k : Fin 64) :
    (V2 m ρ c main_v4 : S2x32x64.Idx → EReal) (ix3 l a k) = w1e (aW1 m c) l a k := by
  -- the buffer is rows 64 to 95 of each first-layer matrix, after the change of format
  have key : ∀ V1 : Valuation τ sig (Elt Ideal),
      (StableHlo.after hostOps0_1 V1 (Proc.devRef .tc main_v4) : S2x32x64.Idx → EReal)
        = extractStridedSlice S2x32x64 ![0, 64, 0]
            (truncf (F := Ideal) .bf16 (V1 (Proc.devRef .tc main_arg2) : S2x96x64.Idx → EReal) Facts₀.bitsLt_bf16_f32)
            Facts₀.slices_S2x96x64_S2x32x64_0_64_0 := by
    intro V1
    dsimp only [hostOps0_1]
    after_results
  show (W2 m ρ c (Proc.devRef .tc main_v4) : S2x32x64.Idx → EReal) (ix3 l a k) = _
  rw [show W2 m ρ c (Proc.devRef .tc main_v4) = _ from key (W1 m ρ c), w1_main_arg2]
  rw [slice3_axis1_apply 64 _ _ l a k (Fin.natAdd 64 a) (by simp)]
  rfl

theorem v2_main_v2 (c : Dev nD) (i : S2x64x64.Idx) :
    (V2 m ρ c main_v2 : S2x64x64.Idx → EReal) i = (m ((c.tc : Thread nD τ).loc main_arg4) : S2x64x64.Idx → EReal) i := by
  -- the buffer is the second-layer matrices after the change of format
  have key : ∀ V1 : Valuation τ sig (Elt Ideal),
      (StableHlo.after hostOps0_1 V1 (Proc.devRef .tc main_v2) : S2x64x64.Idx → EReal)
        = truncf (F := Ideal) .bf16 (V1 (Proc.devRef .tc main_arg4) : S2x64x64.Idx → EReal) Facts₀.bitsLt_bf16_f32 := by
    intro V1
    dsimp only [hostOps0_1]
    after_results
  show (W2 m ρ c (Proc.devRef .tc main_v2) : S2x64x64.Idx → EReal) i = _
  rw [show W2 m ρ c (Proc.devRef .tc main_v2) = _ from key (W1 m ρ c), w1_main_arg4]
  rfl

/-! ## The gathered rows -/

/-- The source words wrapped, as one column. -/
private abbrev idxCol (src : S800000.Idx → BitVec 32) : S800000x1.Idx → BitVec 32 :=
  broadcastInDim S800000x1 ![0] Facts₀.bcast_S800000_S800000x1_0
    (select (cmpi .slt src (broadcastInDim S800000 ![] Facts₀.bcast_S_S800000 (constantI S_ 32 0#32)))
      (addi src (broadcastInDim S800000 ![] Facts₀.bcast_S_S800000 (constantI S_ 32 50000#32))) src)

/-- The two bound tests of a column of indices, elementwise. -/
private abbrev inBounds (idx : S800000x1.Idx → BitVec 32) : S800000x1.Idx → BitVec 1 :=
  andi (cmpi .sge idx (broadcastInDim S800000x1 ![] Facts₀.bcast_S_S800000x1 (constantI S_ 32 0#32)))
    (cmpi .sle idx (broadcastInDim S800000x1 ![0, 1] Facts₀.bcast_S1x1_S800000x1_0_1
      (broadcastInDim S1x1 ![1] Facts₀.bcast_S1_S1x1_1 (constantI S1 32 49999#32))))

private theorem stageA (V : Valuation τ sig (Elt Ideal)) :
    (StableHlo.after (hostOps0.take 8) V (Proc.devRef .tc main_call0_v5) : S800000x1.Idx → BitVec 32)
      = idxCol (V (Proc.devRef .tc main_arg10)) := by
  simp only [hostOps0, List.take_succ_cons, List.take_zero]
  after_results_simp
  rfl

section
attribute [local irreducible] Host.reduce
private theorem stageB (V : Valuation τ sig (Elt Ideal)) :
    (StableHlo.after ((hostOps0.drop 8).take 10) V (Proc.devRef .tc main_call0_v12) : S800000.Idx → BitVec 1)
      = Host.reduce IntOp.andi (inBounds (V (Proc.devRef .tc main_call0_v5))) (constantI S_ 1 1#1)
          Facts₀.reducesTo_S800000x1_S800000_d1 Facts₀.h_S_ := by
  simp only [hostOps0, List.drop_succ_cons, List.drop_zero, List.take_succ_cons, List.take_zero]
  after_results_simp
  rfl
end

private theorem stageC (V : Valuation τ sig (Elt Ideal)) :
    (StableHlo.after (hostOps0.drop 18) V (Proc.devRef .tc main_v0) : S800000x64.Idx → EReal)
      = select (broadcastInDim S800000x64 ![0] Facts₀.bcast_S800000_S800000x64_0 (V (Proc.devRef .tc main_call0_v12)))
          (Host.gather gather_S50000x64_S800000x1_S800000x64_1_0_n_n_0_1_164 (V (Proc.devRef .tc main_arg0))
            (V (Proc.devRef .tc main_call0_v5)))
          (broadcastInDim S800000x64 ![] Facts₀.bcast_S_S800000x64 (constant (F := Ideal) S_ .f32 0x7FC00000#32)) := by
  simp only [hostOps0, List.drop_succ_cons, List.drop_zero]
  after_results_simp
  rfl

private theorem keepB_v5 (V : Valuation τ sig (Elt Ideal)) :
    StableHlo.after ((hostOps0.drop 8).take 10) V (Proc.devRef .tc main_call0_v5) = V (Proc.devRef .tc main_call0_v5) := by
  not_written hostOps0
private theorem keepB_arg0 (V : Valuation τ sig (Elt Ideal)) :
    StableHlo.after ((hostOps0.drop 8).take 10) V (Proc.devRef .tc main_arg0) = V (Proc.devRef .tc main_arg0) := by
  not_written hostOps0
private theorem keepA_arg0 (V : Valuation τ sig (Elt Ideal)) :
    StableHlo.after (hostOps0.take 8) V (Proc.devRef .tc main_arg0) = V (Proc.devRef .tc main_arg0) := by
  not_written hostOps0

/-- What the first stretch leaves in the gathered-rows buffer, as a function of the table and the source words: the
    gathered rows where the row's index passes the bound tests, a fill elsewhere. -/
private abbrev taken (nf : S50000x64.Idx → EReal) (src : S800000.Idx → BitVec 32) : S800000x64.Idx → EReal :=
  select
    (broadcastInDim S800000x64 ![0] Facts₀.bcast_S800000_S800000x64_0
      (Host.reduce IntOp.andi (inBounds (idxCol src)) (constantI S_ 1 1#1) Facts₀.reducesTo_S800000x1_S800000_d1 Facts₀.h_S_))
    (Host.gather gather_S50000x64_S800000x1_S800000x64_1_0_n_n_0_1_164 nf (idxCol src))
    (broadcastInDim S800000x64 ![] Facts₀.bcast_S_S800000x64 (constant (F := Ideal) S_ .f32 0x7FC00000#32))

private theorem after0_main_v0 (V0 : Valuation τ sig (Elt Ideal)) :
    (StableHlo.after hostOps0 V0 (Proc.devRef .tc main_v0) : S800000x64.Idx → EReal)
      = taken (V0 (Proc.devRef .tc main_arg0)) (V0 (Proc.devRef .tc main_arg10)) := by
  show StableHlo.after (hostOps0.drop 18) (StableHlo.after ((hostOps0.drop 8).take 10)
    (StableHlo.after (hostOps0.take 8) V0)) (Proc.devRef .tc main_v0) = _
  rw [stageC, stageB, keepB_v5, keepB_arg0, keepA_arg0, stageA]

/-- A vector of more than one entry laid along the rows of a rectangle reads, at (p, q), the vector at p. -/
private theorem bcast_rows_apply {α : Type} {n k : Nat} (hn : n ≠ 1)
    (h : (⟨1, ![n]⟩ : Shape).BroadcastsInDim ⟨2, ![n, k]⟩ ![0]) (v : (⟨1, ![n]⟩ : Shape).Idx → α) (p : Fin n) (q : Fin k) :
    broadcastInDim ⟨2, ![n, k]⟩ ![0] h v (ix2 p q) = v (ix1 p) :=
  broadcastInDim_apply _ _ _ _ (ix1 p) (fun ax => by
    match ax with
    | ⟨0, _⟩ => exact (if_neg hn).symm)

/-- The wrapped column at row `p` is the wrapped word of edge `p`. -/
private theorem idxCol_apply (src : S800000.Idx → BitVec 32) (p : Fin 800000) (z : Fin 1) :
    idxCol src (ix2 p z) = wrap (src (ix1 p)) :=
  (bcast_rows_apply (by decide) _ _ p z).trans rfl

/-- With every source word in the range, every row of the column passes both bound tests. -/
private theorem inBounds_one (src : S800000.Idx → BitVec 32)
    (hr : ∀ p : Fin 800000, 0 ≤ (src (ix1 p)).toInt ∧ (src (ix1 p)).toInt < 50000) (i : S800000x1.Idx) :
    inBounds (idxCol src) i = 1#1 := by
  obtain ⟨p, z, rfl⟩ : ∃ p z, i = ix2 p z := ⟨i 0, i 1, eq_ix2 i⟩
  show IntOp.andi (IntOp.cmpi .sge (idxCol src (ix2 p z)) 0#32) (IntOp.cmpi .sle (idxCol src (ix2 p z)) 49999#32) = 1#1
  rw [idxCol_apply, (wrap_in_range _ (hr p).1 (hr p).2).1]
  exact (wrap_in_range _ (hr p).1 (hr p).2).2

theorem v2_main_v0 (c : Dev nD) (h : SrcInRange m c) (e : Fin 800000) (a : Fin 64) :
    (V2 m ρ c main_v0 : S800000x64.Idx → EReal) (ix2 e a) = aNf m c (row (aSrc m c) e) a := by
  have e1 : W2 m ρ c (Proc.devRef .tc main_v0) = W1 m ρ c (Proc.devRef .tc main_v0) := by not_written hostOps0_1
  have e2 : (W1 m ρ c (Proc.devRef .tc main_v0) : S800000x64.Idx → EReal)
      = taken (m ((c.tc : Thread nD τ).loc main_arg0)) (m ((c.tc : Thread nD τ).loc main_arg10)) :=
    after0_main_v0 (W0 m ρ c)
  show (W2 m ρ c (Proc.devRef .tc main_v0) : S800000x64.Idx → EReal) (ix2 e a) = _
  rw [e1, e2]
  -- the mask bit of row `e` is 1: every row of the column passes the bound tests
  have hmask : (broadcastInDim S800000x64 ![0] Facts₀.bcast_S800000_S800000x64_0
      (Host.reduce IntOp.andi (inBounds (idxCol (m ((c.tc : Thread nD τ).loc main_arg10)))) (constantI S_ 1 1#1)
        Facts₀.reducesTo_S800000x1_S800000_d1 Facts₀.h_S_)) (ix2 e a) = 1#1 := by
    rw [bcast_rows_apply (by decide) _ _ e a]
    exact reduce_andi_one _ _ _ _ (fun _ => rfl) (inBounds_one _ fun p => h p) _
  show Scalar.select _ _ _ = _
  rw [hmask, select_one, gather_row _ rfl rfl rfl rfl rfl _ _ e a (by decide)]
  -- the gathered row is the one the wrapped, clamped word names
  refine congrArg (fun r : Fin 50000 => (m ((c.tc : Thread nD τ).loc main_arg0) : S50000x64.Idx → EReal) (ix2 r a)) (Fin.ext ?_)
  show min (idxCol (m ((c.tc : Thread nD τ).loc main_arg10)) (ix2 e 0)).toInt.toNat (50000 - 1)
    = min (wrap ((m ((c.tc : Thread nD τ).loc main_arg10) : S800000.Idx → BitVec 32) (ix1 e))).toInt.toNat 49999
  rw [idxCol_apply]

end Cert.KernelIdeal.Hand

end
-- ==== Proof.LibScatter.lean ====
/-
  A float scatter-add whose updates are whole rows (or single elements) placed by ONE index word each, read at one
  element on the extended reals: the operand's element plus the sum of the update elements that land on it.  An update
  row `e` lands on operand row `n` exactly when its index word, read signed, is the number `n` (an index outside the
  operand lands nowhere); within the row the column is kept.  The sum over the update elements that land on (n, a) is
  therefore the sum over all update rows `e` of "update (e, a) if the word of `e` is `n`, else 0".
-/
import Idealize.ShloMosaic.PureOps.Ideal
import Idealize.ShloMosaic.PureOps.Contract
import Idealize.ShloMosaic.Lib.ValueIdx

noncomputable section

open scoped BigOperators

namespace Cert.LibScatter

open Idealize.ShloMosaic Idealize.ShloMosaic.ValueIdx

/-- The dimension numbers of a scatter of rows: operand [N, C], one index word per update row ([E, 1]), updates [E, C];
    the update's axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update index lands on operand index i exactly when start plus window is i's coordinate on every axis. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      exact (Int.toNat_of_nonneg (h a).1).symm
    · intro hh
      funext a
      refine Fin.ext ?_
      show (d.start j idx a + (d.window j a : ℤ)).toNat = (i a).val
      rw [hh a]; exact Int.toNat_natCast _
  · rename_i h
    constructor
    · intro hh; cases hh
    · intro hh
      exfalso; apply h
      intro a
      rw [hh a]
      exact ⟨Int.natCast_nonneg _, by exact_mod_cast (i a).isLt⟩

/-- On the scattered axis the window of update row e starts at that row's index word, read signed. -/
private theorem rows_start0 {N E C : Nat}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every window starts at 0. -/
private theorem rows_start1 {N E C : Nat}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) :
    (rowsDims N E C wf).start j idx 1 = 0 := by
  unfold ScatterDims.start
  have h : ¬ (1 : Fin 2) ∈ (rowsDims N E C wf).scatterDimsToOperandDims := by
    show ¬ (1 : Fin 2) ∈ ([0] : List (Fin 2)); decide
  rw [dif_neg h]

/-- The scattered axis is inserted: its window coordinate is 0. -/
private theorem rows_window0 {N E C : Nat}
    (wf : ScatterDims.WF ⟨2, ![N, C]⟩ ⟨2, ![E, 1]⟩ ⟨2, ![E, C]⟩ [1] [0] [0] 1)
    (j : (⟨2, ![E, C]⟩ : Shape).Idx) :
    (rowsDims N E C wf).window j 0 = 0 := by
  unfold ScatterDims.window
  have h : ¬ (0 : Fin 2) ∈ (rowsDims N E C wf).sKept := by
    show ¬ (0 : Fin 2) ∈ ([1] : List (Fin 2)); decide
  rw [dif_neg h]

/-- On the column axis the window coordinate is the update's column. -/
private theorem rows_window1 {N E C : Nat}
    (wf : ScatterDims.WF ⟨2, ![N, C]⟩ ⟨2, ![E, 1]⟩ ⟨2, ![E, C]⟩ [1] [0] [0] 1)
    (j : (⟨2, ![E, C]⟩ : Shape).Idx) :
    (rowsDims N E C wf).window j 1 = (j 1).val := by
  unfold ScatterDims.window
  have h : (1 : Fin 2) ∈ (rowsDims N E C wf).sKept := by
    show (1 : Fin 2) ∈ ([1] : List (Fin 2)); decide
  rw [dif_pos h]
  rfl

/-- An update element (e, a') lands on operand element (n, a) exactly when the word of row e is n and the column is kept. -/
private theorem rows_resultIdx?_iff {N E C : Nat}
    (wf : ScatterDims.WF ⟨2, ![N, C]⟩ ⟨2, ![E, 1]⟩ ⟨2, ![E, C]⟩ [1] [0] [0] 1)
    (idx : IVec ⟨2, ![E, 1]⟩ 32) (e : Fin E) (a' : Fin C) (n : Fin N) (a : Fin C) :
    (rowsDims N E C wf).resultIdx? (ix2 e a') idx = some (ix2 n a)
      ↔ (idx (ix2 e 0)).toInt = (n.val : ℤ) ∧ a' = a := by
  rw [resultIdx?_eq_some_iff, Fin.forall_fin_two, rows_start0, rows_start1, rows_window0, rows_window1]
  show (idx (ix2 e 0)).toInt + ((0 : ℕ) : ℤ) = (n.val : ℤ) ∧ (0 : ℤ) + ((a'.val : ℕ) : ℤ) = ((a.val : ℕ) : ℤ) ↔ _
  constructor
  · rintro ⟨h0, h1⟩
    exact ⟨by omega, Fin.ext (by omega)⟩
  · rintro ⟨h0, rfl⟩
    exact ⟨by omega, by omega⟩

/-- The scatter of rows read at (n, a). -/
theorem scatterAdd_rows_apply {N E C : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32)
    (n : Fin N) (a : Fin C) :
    Host.scatterAdd (F := Ideal) (φ := .f32) (rowsDims N E C wf) x idx upd (ix2 n a)
      = x (ix2 n a) + ∑ e : Fin E, if (idx (ix2 e 0)).toInt = (n.val : ℤ) then upd (ix2 e a) else 0 := by
  show x (ix2 n a) + ∑ j ∈ Finset.univ.filter (fun j => (rowsDims N E C wf).resultIdx? j idx = some (ix2 n a)), upd j = _
  congr 1
  rw [Finset.sum_filter, sum_idx2]
  refine Finset.sum_congr rfl fun e _ => ?_
  simp only [rows_resultIdx?_iff]
  by_cases hw : (idx (ix2 e 0)).toInt = (n.val : ℤ)
  · simp only [hw, true_and, if_true]
    exact Finset.sum_ite_eq' Finset.univ a (fun a' => upd (ix2 e a')) |>.trans (if_pos (Finset.mem_univ a))
  · simp only [hw, false_and, if_false]
    exact Finset.sum_const_zero

/-- The dimension numbers of a scatter of single elements: operand [N], one index word per update ([E, 1]), updates [E]. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the one axis the window of update e starts at that update's index word, read signed. -/
private theorem vec_start0 {N E : Nat}
    (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one axis is inserted: its window coordinate is 0. -/
private theorem vec_window0 {N E : Nat}
    (wf : ScatterDims.WF ⟨1, ![N]⟩ ⟨2, ![E, 1]⟩ ⟨1, ![E]⟩ [] [0] [0] 1)
    (j : (⟨1, ![E]⟩ : Shape).Idx) :
    (vecDims N E wf).window j 0 = 0 := by
  unfold ScatterDims.window
  have h : ¬ (0 : Fin 1) ∈ (vecDims N E wf).sKept := by
    show ¬ (0 : Fin 1) ∈ ([] : List (Fin 1)); decide
  rw [dif_neg h]

/-- Update element e lands on operand element n exactly when its word is n. -/
private theorem vec_resultIdx?_iff {N E : Nat}
    (wf : ScatterDims.WF ⟨1, ![N]⟩ ⟨2, ![E, 1]⟩ ⟨1, ![E]⟩ [] [0] [0] 1)
    (idx : IVec ⟨2, ![E, 1]⟩ 32) (e : Fin E) (n : Fin N) :
    (vecDims N E wf).resultIdx? (ix1 e) idx = some (ix1 n) ↔ (idx (ix2 e 0)).toInt = (n.val : ℤ) := by
  rw [resultIdx?_eq_some_iff, Fin.forall_fin_one, vec_start0, vec_window0]
  show (idx (ix2 e 0)).toInt + ((0 : ℕ) : ℤ) = (n.val : ℤ) ↔ _
  constructor <;> intro h <;> omega

/-- A rank-1 index set is its one coordinate range. -/
private def idxEquivOne {n : Nat} : (⟨1, ![n]⟩ : Shape).Idx ≃ Fin n where
  toFun i := i 0
  invFun a := ix1 a
  left_inv i := (eq_ix1 i).symm
  right_inv _ := rfl

/-- The scatter of single elements read at n. -/
theorem scatterAdd_vec_apply {N E : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ 32) (upd : FVec Ideal ⟨1, ![E]⟩ .f32) (n : Fin N) :
    Host.scatterAdd (F := Ideal) (φ := .f32) (vecDims N E wf) x idx upd (ix1 n)
      = x (ix1 n) + ∑ e : Fin E, if (idx (ix2 e 0)).toInt = (n.val : ℤ) then upd (ix1 e) else 0 := by
  show x (ix1 n) + ∑ j ∈ Finset.univ.filter (fun j => (vecDims N E wf).resultIdx? j idx = some (ix1 n)), upd j = _
  congr 1
  rw [Finset.sum_filter, ← Equiv.sum_comp (idxEquivOne (n := E)).symm]
  refine Finset.sum_congr rfl fun e _ => ?_
  show (if (vecDims N E wf).resultIdx? (ix1 e) idx = some (ix1 n) then upd (ix1 e) else 0) = _
  simp only [vec_resultIdx?_iff]

end Cert.LibScatter

end
-- ==== Proof.HostK1.lean ====
/-
  What the buffers hold when region 1 is entered, read at one element: ONE scatter of the message rows with a column of
  ones appended puts on each node, onto zero, the sum of the messages that land on it (columns 0 … 63) and their number
  (column 64); the first 64 columns over the last plus the small constant is the normalised aggregate.  The update
  matrices are cut into their first and last 64 rows and re-formatted, which is the identity on the extended reals.
-/
import proofs.«424879_j24713241821695_4_alg».proof.Proof.Args
import proofs.«424879_j24713241821695_4_alg».proof.Proof.LibScatter
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec
variable (m : (ℓ : Loc nD τ sig) → Buf (Elt Ideal) ℓ) (ρ : Dev nD → PrngReg)

/-- The scatter of rows of 65, read at one element: the operand's element plus the updates whose index word, read
    signed, is the node's number (an index outside the table lands nowhere). -/
theorem scat65_apply (x : FVec Ideal S50000x65 .f32) (idx : IVec S800000x1 32)
    (upd : FVec Ideal S800000x65 .f32) (n : Fin 50000) (a : Fin 65) :
    (Host.scatterAdd (F := Ideal) (φ := .f32) scatter_S50000x65_S800000x1_S800000x65_1_0_0_1 x idx upd : S50000x65.Idx → EReal) (ix2 n a)
      = (x : S50000x65.Idx → EReal) (ix2 n a)
        + ∑ e : Fin 800000, if ((idx : S800000x1.Idx → BitVec 32) (ix2 e 0)).toInt = (n.val : ℤ)
            then (upd : S800000x65.Idx → EReal) (ix2 e a) else 0 := by
  exact Cert.LibScatter.scatterAdd_rows_apply scatter_S50000x65_S800000x1_S800000x65_1_0_0_1_wf x idx upd n a

/-- A buffer no operation of the stretch writes is read through it. -/
local macro "host_skip" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at region 0's exit: as launched -/

private theorem w3_main_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by host_skip hostOps0_1
    _ = W0 m ρ c (Proc.devRef .tc main_arg6) := by host_skip hostOps0
    _ = m ((c : Thread nD τ).loc main_arg6) := rfl
private theorem w3_main_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by host_skip hostOps0_1
    _ = W0 m ρ c (Proc.devRef .tc main_arg8) := by host_skip hostOps0
    _ = m ((c : Thread nD τ).loc main_arg8) := rfl
private theorem w3_main_arg11 (c : Dev nD) : W3 m ρ c (Proc.devRef .tc main_arg11) = m ((c.tc : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := by host_skip hostOps0_1
    _ = W0 m ρ c (Proc.devRef .tc main_arg11) := by host_skip hostOps0
    _ = m ((c : Thread nD τ).loc main_arg11) := rfl

/-! ## One scatter gives the aggregate and the degree -/

/-- A word splat to any shape reads, everywhere, the extended real of the word. -/
private theorem splat_apply {T : Shape} (h : S_.BroadcastsInDim T ![]) (w : BitVec 32) (j : T.Idx) :
    (broadcastInDim T ![] h (constant (F := Ideal) S_ .f32 w) : T.Idx → EReal) j = Ideal.ofBits .f32 w := by
  rw [broadcastInDim_apply _ _ _ _ (fun d => d.elim0) (fun d => d.elim0), constant_apply]

/-- The message rows with a column of ones appended, scattered by destination onto zero. -/
private abbrev scat (msg : FVec Ideal S800000x64 .f32) (dst : IVec S800000 32) : FVec Ideal S50000x65 .f32 :=
  Host.scatterAdd scatter_S50000x65_S800000x1_S800000x65_1_0_0_1
    (broadcastInDim S50000x65 ![] bcast_S_S50000x65 (constant S_ .f32 0x00000000#32))
    (broadcastInDim S800000x1 ![0] bcast_S800000_S800000x1_0 dst)
    (concatenate S800000x65 1 [⟨S800000x64, msg⟩,
      ⟨S800000x1, broadcastInDim S800000x1 ![] bcast_S_S800000x1 (constant S_ .f32 0x3F800000#32)⟩]
      concatenates_S800000x64_S800000x1_S800000x65_d1)

/-- Columns 0 … 63 of the scattered array: the sum of the messages that land on the node. -/
private theorem scat_left (msg : FVec Ideal S800000x64 .f32) (dst : IVec S800000 32) (n : Fin 50000) (a : Fin 64) :
    (scat msg dst : S50000x65.Idx → EReal) (ix2 n (Fin.castAdd 1 a)) = agg (c2 msg) (c1 dst) n a := by
  unfold agg
  refine (scat65_apply _ _ _ n _).trans ?_
  rw [splat_apply, Ideal.ofBits_zero_f32]
  refine congrArg (0 + ·) (Finset.sum_congr rfl fun e _ => ?_)
  rw [broadcastInDim_apply (![0] : Fin 1 → Fin 2) bcast_S800000_S800000x1_0 dst (ix2 e 0) (ix1 e) (fun d => by
    match d with
    | ⟨0, _⟩ => rfl)]
  rw [concatenate_pair_apply_left (1 : Fin 2) msg _ concatenates_S800000x64_S800000x1_S800000x65_d1
    (ix2 e (Fin.castAdd 1 a)) rfl (ix2 e a) (fun b => by
      match b with
      | ⟨0, _⟩ => rfl
      | ⟨1, _⟩ => rfl)]

/-- Column 64 of the scattered array: the number of messages that land on the node, as a sum of ones. -/
private theorem scat_right (msg : FVec Ideal S800000x64 .f32) (dst : IVec S800000 32) (n : Fin 50000) :
    (scat msg dst : S50000x65.Idx → EReal) (ix2 n (Fin.last 64)) = deg (c1 dst) n := by
  unfold deg
  refine (scat65_apply _ _ _ n _).trans ?_
  rw [splat_apply, Ideal.ofBits_zero_f32]
  refine congrArg (0 + ·) (Finset.sum_congr rfl fun e _ => ?_)
  rw [broadcastInDim_apply (![0] : Fin 1 → Fin 2) bcast_S800000_S800000x1_0 dst (ix2 e 0) (ix1 e) (fun d => by
    match d with
    | ⟨0, _⟩ => rfl)]
  rw [concatenate_pair_apply_right (t := S800000x65) (s₁ := S800000x64) (s₂ := S800000x1) (1 : Fin 2) msg _
    concatenates_S800000x64_S800000x1_S800000x65_d1 (ix2 e (Fin.last 64)) rfl rfl (ix2 e 0) (fun b hb => by
      match b with
      | ⟨0, _⟩ => rfl
      | ⟨1, _⟩ => exact absurd rfl hb) rfl, splat_apply]

/-- The normalised aggregate as the operations spell it: the first 64 columns of the scattered array over the last
    column plus the small constant, the divisor spread along the row. -/
private abbrev nrmTerm (msg : FVec Ideal S800000x64 .f32) (dst : IVec S800000 32) : FVec Ideal S50000x64 .f32 :=
  Host.divf
    (extractStridedSlice S50000x64 ![0, 0] (scat msg dst) slices_S50000x65_S50000x64_0_0)
    (broadcastInDim S50000x64 ![0, 1] bcast_S50000x1_S50000x64_0_1
      (addf (extractStridedSlice S50000x1 ![0, 64] (scat msg dst) slices_S50000x65_S50000x1_0_64)
        (broadcastInDim S50000x1 ![] bcast_S_S50000x1 (constant S_ .f32 0x322BCC77#32))))

/-- The quotient of two arrays at an index is the quotient of the elements. -/
private theorem hdiv_apply {s : Shape} (x y : FVec Ideal s .f32) (i : s.Idx) :
    (Host.divf x y : s.Idx → EReal) i = Ideal.div (x i) (y i) := rfl

private theorem nrmTerm_apply (msg : FVec Ideal S800000x64 .f32) (dst : IVec S800000 32) (n : Fin 50000) (a : Fin 64) :
    (nrmTerm msg dst : S50000x64.Idx → EReal) (ix2 n a) = nrm (c2 msg) (c1 dst) n a := by
  unfold nrm
  refine (hdiv_apply _ _ _).trans ?_
  rw [slice2_axis1_apply 0 _ slices_S50000x65_S50000x64_0_0 n a (Fin.castAdd 1 a) (Nat.zero_add _).symm, scat_left]
  rw [broadcastInDim_apply (![0, 1] : Fin 2 → Fin 2) bcast_S50000x1_S50000x64_0_1 _ (ix2 n a) (ix2 n 0) (fun d => by
    match d with
    | ⟨0, _⟩ => rfl
    | ⟨1, _⟩ => rfl)]
  rw [addf_apply, slice2_axis1_apply 64 _ slices_S50000x65_S50000x1_0_64 n 0 (Fin.last 64) rfl, scat_right, splat_apply]

private theorem ops1_v16 (X : Valuation τ sig (Elt Ideal)) :
    (StableHlo.after (hostOps1 (F := Ideal)) X (Proc.devRef .tc main_v16) : S50000x64.Idx → EReal)
      = nrmTerm (X (Proc.devRef .tc main_v5)) (X (Proc.devRef .tc main_arg11)) := by
  after_results

private theorem ops1_v18 (X : Valuation τ sig (Elt Ideal)) :
    (StableHlo.after (hostOps1 (F := Ideal)) X (Proc.devRef .tc main_v18) : S64x64.Idx → EReal)
      = (truncf .bf16 (X (Proc.devRef .tc main_arg8) : FVec Ideal S64x64 .f32) bitsLt_bf16_f32 : FVec Ideal S64x64 .bf16) := by
  after_results
private theorem ops1_v19 (X : Valuation τ sig (Elt Ideal)) :
    (StableHlo.after (hostOps1 (F := Ideal)) X (Proc.devRef .tc main_v19) : S64x64.Idx → EReal)
      = extractStridedSlice S64x64 ![0, 0]
          (truncf .bf16 (X (Proc.devRef .tc main_arg6) : FVec Ideal S128x64 .f32) bitsLt_bf16_f32 : FVec Ideal S128x64 .bf16)
          slices_S128x64_S64x64_0_0 := by
  after_results
private theorem ops1_v20 (X : Valuation τ sig (Elt Ideal)) :
    (StableHlo.after (hostOps1 (F := Ideal)) X (Proc.devRef .tc main_v20) : S64x64.Idx → EReal)
      = extractStridedSlice S64x64 ![64, 0]
          (truncf .bf16 (X (Proc.devRef .tc main_arg6) : FVec Ideal S128x64 .f32) bitsLt_bf16_f32 : FVec Ideal S128x64 .bf16)
          slices_S128x64_S64x64_64_0 := by
  after_results

/-! ## At region 1's entry -/

theorem v4_main_arg0 (c : Dev nD) : V4 m ρ c main_arg0 = m ((c.tc : Thread nD τ).loc main_arg0) :=
  calc W4 m ρ c (Proc.devRef .tc main_arg0)
    _ = W3 m ρ c (Proc.devRef .tc main_arg0) := by host_skip hostOps1
    _ = W2 m ρ c (Proc.devRef .tc main_arg0) := W3_of_ne m ρ c main_arg0 (by decide)
    _ = W1 m ρ c (Proc.devRef .tc main_arg0) := by host_skip hostOps0_1
    _ = W0 m ρ c (Proc.devRef .tc main_arg0) := by host_skip hostOps0
    _ = m ((c : Thread nD τ).loc main_arg0) := rfl
/-- The normalised aggregate, from the message array region 0 left. -/
theorem v4_main_v16 (c : Dev nD) (n : Fin 50000) (a : Fin 64) :
    (V4 m ρ c main_v16 : S50000x64.Idx → EReal) (ix2 n a)
      = nrm (c2 (W3 m ρ c (Proc.devRef .tc main_v5) : S800000x64.Idx → EReal)) (aDst m c) n a := by
  show (StableHlo.after hostOps1 (W3 m ρ c) (Proc.devRef .tc main_v16) : S50000x64.Idx → EReal) (ix2 n a) = _
  rw [ops1_v16, nrmTerm_apply, w3_main_arg11]
theorem v4_main_v19 (c : Dev nD) (a : Fin 64) (k : Fin 64) :
    (V4 m ρ c main_v19 : S64x64.Idx → EReal) (ix2 a k) = u1n (aU1 m c) a k := by
  show (StableHlo.after hostOps1 (W3 m ρ c) (Proc.devRef .tc main_v19) : S64x64.Idx → EReal) (ix2 a k) = _
  rw [ops1_v19, w3_main_arg6]
  exact slice2_axis0_apply 0 _ _ a k (Fin.castAdd 64 a) (Nat.zero_add _).symm
theorem v4_main_v20 (c : Dev nD) (a : Fin 64) (k : Fin 64) :
    (V4 m ρ c main_v20 : S64x64.Idx → EReal) (ix2 a k) = u1a (aU1 m c) a k := by
  show (StableHlo.after hostOps1 (W3 m ρ c) (Proc.devRef .tc main_v20) : S64x64.Idx → EReal) (ix2 a k) = _
  rw [ops1_v20, w3_main_arg6]
  exact slice2_axis0_apply 64 _ _ a k (Fin.natAdd 64 a) rfl
theorem v4_main_arg7 (c : Dev nD) : V4 m ρ c main_arg7 = m ((c.tc : Thread nD τ).loc main_arg7) :=
  calc W4 m ρ c (Proc.devRef .tc main_arg7)
    _ = W3 m ρ c (Proc.devRef .tc main_arg7) := by host_skip hostOps1
    _ = W2 m ρ c (Proc.devRef .tc main_arg7) := W3_of_ne m ρ c main_arg7 (by decide)
    _ = W1 m ρ c (Proc.devRef .tc main_arg7) := by host_skip hostOps0_1
    _ = W0 m ρ c (Proc.devRef .tc main_arg7) := by host_skip hostOps0
    _ = m ((c : Thread nD τ).loc main_arg7) := rfl
theorem v4_main_v18 (c : Dev nD) (i : S64x64.Idx) :
    (V4 m ρ c main_v18 : S64x64.Idx → EReal) i = (m ((c.tc : Thread nD τ).loc main_arg8) : S64x64.Idx → EReal) i := by
  show (StableHlo.after hostOps1 (W3 m ρ c) (Proc.devRef .tc main_v18) : S64x64.Idx → EReal) i = _
  rw [ops1_v18, w3_main_arg8]
  rfl
theorem v4_main_arg9 (c : Dev nD) : V4 m ρ c main_arg9 = m ((c.tc : Thread nD τ).loc main_arg9) :=
  calc W4 m ρ c (Proc.devRef .tc main_arg9)
    _ = W3 m ρ c (Proc.devRef .tc main_arg9) := by host_skip hostOps1
    _ = W2 m ρ c (Proc.devRef .tc main_arg9) := W3_of_ne m ρ c main_arg9 (by decide)
    _ = W1 m ρ c (Proc.devRef .tc main_arg9) := by host_skip hostOps0_1
    _ = W0 m ρ c (Proc.devRef .tc main_arg9) := by host_skip hostOps0
    _ = m ((c : Thread nD τ).loc main_arg9) := rfl

end Cert.KernelIdeal.Hand

end
-- ==== Proof.KValue.lean ====
/-
  The kernel program's result array read at one element, as the specification's function of the argument arrays: the
  last boundary's contents at the result are what region 1 leaves; region 1 reads the node features and the normalised
  aggregate, which comes from region 0's message array through the scatter; region 0 reads the gathered source rows,
  which under the index range are the rows the indices name.
-/
import proofs.«424879_j24713241821695_4_alg».proof.Proof.Reg
import proofs.«424879_j24713241821695_4_alg».proof.Proof.HostK0
import proofs.«424879_j24713241821695_4_alg».proof.Proof.HostK1

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec
variable (m : (ℓ : Loc nD τ sig) → Buf (Elt Ideal) ℓ) (ρ : Dev nD → PrngReg)

/-- The message array region 0 leaves is the specification's message function. -/
theorem msg_value (c : Dev nD) (h : SrcInRange m c) :
    c2 (W3 m ρ c (Proc.devRef .tc main_v5) : S800000x64.Idx → EReal)
      = msgK (aNf m c) (aEf m c) (aW1 m c) (aB1 m c) (aW2 m c) (aB2 m c) (aSrc m c) := by
  funext e j
  show (W3 m ρ c (Proc.devRef .tc main_v5) : S800000x64.Idx → EReal) (ix2 e j) = _
  have e1 : W3 m ρ c (Proc.devRef .tc main_v5) = (dat0 (V2 m ρ) c).arrAt 7 cfg0.N := W3_arr m ρ c 7
  rw [e1]
  refine (final0 (V2 m ρ) c e j).trans ?_
  unfold msgK
  have a0 : (fun a => (V2 m ρ c main_v0 : S800000x64.Idx → EReal) (ix2 e a)) = aNf m c (row (aSrc m c) e) :=
    funext fun a => v2_main_v0 m ρ c h e a
  have a1 : (fun a => (V2 m ρ c main_arg1 : S800000x32.Idx → EReal) (ix2 e a)) = aEf m c e := by
    funext a; rw [v2_main_arg1]
  have a2 : c3 (V2 m ρ c main_v3 : S2x64x64.Idx → EReal) = w1n (aW1 m c) :=
    funext fun l => funext fun a => funext fun k => v2_main_v3 m ρ c l a k
  have a3 : c3 (V2 m ρ c main_v4 : S2x32x64.Idx → EReal) = w1e (aW1 m c) :=
    funext fun l => funext fun a => funext fun k => v2_main_v4 m ρ c l a k
  have a4 : c2 (V2 m ρ c main_arg3 : S2x64.Idx → EReal) = aB1 m c := by rw [v2_main_arg3]
  have a5 : c3 (V2 m ρ c main_v2 : S2x64x64.Idx → EReal) = aW2 m c :=
    funext fun l => funext fun a => funext fun k => v2_main_v2 m ρ c (ix3 l a k)
  have a6 : c2 (V2 m ρ c main_arg5 : S2x64.Idx → EReal) = aB2 m c := by rw [v2_main_arg5]
  rw [a0, a1, a2, a3, a4, a5, a6]

/-- THE KERNEL'S RESULT at node `n`, column `j`. -/
theorem kernel_apply (c : Dev nD) (h : SrcInRange m c) (n : Fin 50000) (j : Fin 64) :
    (W5 m ρ c (Proc.devRef .tc main_v21) : S50000x64.Idx → EReal) (ix2 n j)
      = outK (aNf m c) (aEf m c) (aW1 m c) (aB1 m c) (aW2 m c) (aB2 m c) (aU1 m c) (aUb1 m c) (aU2 m c) (aUb2 m c)
          (aSrc m c) (aDst m c) n j := by
  have e1 : W5 m ρ c (Proc.devRef .tc main_v21) = (dat1 (V4 m ρ) c).arrAt 7 cfg1.N := W5_arr m ρ c 7
  rw [e1]
  refine (final1 (V4 m ρ) c n j).trans ?_
  unfold outK
  have a0 : (fun a => (V4 m ρ c main_arg0 : S50000x64.Idx → EReal) (ix2 n a)) = aNf m c n := by
    funext a; rw [v4_main_arg0]
  have a1 : (fun a => (V4 m ρ c main_v16 : S50000x64.Idx → EReal) (ix2 n a))
      = nrm (msgK (aNf m c) (aEf m c) (aW1 m c) (aB1 m c) (aW2 m c) (aB2 m c) (aSrc m c)) (aDst m c) n := by
    funext a; rw [v4_main_v16, msg_value m ρ c h]
  have a2 : c2 (V4 m ρ c main_v19 : S64x64.Idx → EReal) = u1n (aU1 m c) :=
    funext fun a => funext fun k => v4_main_v19 m ρ c a k
  have a3 : c2 (V4 m ρ c main_v20 : S64x64.Idx → EReal) = u1a (aU1 m c) :=
    funext fun a => funext fun k => v4_main_v20 m ρ c a k
  have a4 : c1 (V4 m ρ c main_arg7 : S64.Idx → EReal) = aUb1 m c := by rw [v4_main_arg7]
  have a5 : c2 (V4 m ρ c main_v18 : S64x64.Idx → EReal) = aU2 m c :=
    funext fun a => funext fun k => v4_main_v18 m ρ c (ix2 a k)
  have a6 : c1 (V4 m ρ c main_arg9 : S64.Idx → EReal) = aUb2 m c := by rw [v4_main_arg9]
  rw [a0, a1, a2, a3, a4, a5, a6]

end Cert.KernelIdeal.Hand

end
-- ==== Proof.RefMsg.lean ====
/-
  The reference's message array read at one element.  The gather reads the node row the wrapped index names, read signed
  and clamped into the table; the concatenation lays the gathered row and the edge's features end to end; each matrix
  product is the sum over its contracted axis; so the message of edge `e` is the row function, in the reference's
  association, of that concatenated row.
-/
import proofs.«424879_j24713241821695_4_alg».proof.Proof.Gen.ReferenceIdeal.Read
import proofs.«424879_j24713241821695_4_alg».proof.Proof.SpecOut
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Read Cert.Spec

/-- The start-index word of edge `e`: the source word wrapped as a negative index is. -/
private theorem wrapped_apply (x10 : (⟨S800000, .i32⟩ : BufTy).Contents (Elt Ideal)) (e : Fin 800000) :
    val_main_v5 (F := Ideal) x10 (ix2 e 0) = wrap ((x10 : S800000.Idx → BitVec 32) (ix1 e)) := by
  have hi : idx_main_v5 (ix2 e (0 : Fin 1)) = ix1 e := funext fun a => Fin.ext (by match a with | ⟨0, _⟩ => rfl)
  rw [val_main_v5_apply, hi, val_main_v4_apply, val_main_v1_apply, val_main_v3_apply, val_main_v0_apply,
    val_main_v2_apply, val_main_c_apply, val_main_c_0_apply]
  rfl

/-- The gathered source rows. -/
theorem gather_apply (x0 : (⟨S50000x64, .f32⟩ : BufTy).Contents (Elt Ideal)) (x10 : (⟨S800000, .i32⟩ : BufTy).Contents (Elt Ideal))
    (e : Fin 800000) (a : Fin 64) :
    (val_main_v6 (F := Ideal) x0 x10 : S800000x64.Idx → EReal) (ix2 e a)
      = c2 (x0 : S50000x64.Idx → EReal) (row (c1 (x10 : S800000.Idx → BitVec 32)) e) a := by
  unfold val_main_v6 Host.gather
  show x0 _ = x0 (ix2 _ a)
  congr 1
  funext b
  refine Fin.ext ?_
  match b with
  | ⟨0, _⟩ =>
    -- the collapsed axis: the clamped start, no batching coordinate, no offset coordinate
    show gather_S50000x64_S800000x1_S800000x64_1_0_n_n_0_1_164.start (ix2 e a) (val_main_v5 (F := Ideal) x10) 0
      + gather_S50000x64_S800000x1_S800000x64_1_0_n_n_0_1_164.batchCoord (ix2 e a) 0
      + gather_S50000x64_S800000x1_S800000x64_1_0_n_n_0_1_164.offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50000x64.rank) ∈ gather_S50000x64_S800000x1_S800000x64_1_0_n_n_0_1_164.startIndexMap
      from List.mem_singleton.mpr rfl)]
    have hsi : gather_S50000x64_S800000x1_S800000x64_1_0_n_n_0_1_164.siIdx (ix2 e a)
        ⟨List.idxOf (0 : Fin S50000x64.rank) gather_S50000x64_S800000x1_S800000x64_1_0_n_n_0_1_164.startIndexMap,
          List.idxOf_lt_length_iff.2 (List.mem_singleton.mpr rfl)⟩ = ix2 e (0 : Fin 1) := by
      funext c; refine Fin.ext ?_
      match c with
      | ⟨0, _⟩ => rfl
      | ⟨1, _⟩ => rfl
    rw [hsi, wrapped_apply]
    rfl
  | ⟨1, _⟩ =>
    -- the kept axis: no start, no batching coordinate, the result's column as the offset coordinate
    show gather_S50000x64_S800000x1_S800000x64_1_0_n_n_0_1_164.start (ix2 e a) (val_main_v5 (F := Ideal) x10) 1
      + gather_S50000x64_S800000x1_S800000x64_1_0_n_n_0_1_164.batchCoord (ix2 e a) 1
      + gather_S50000x64_S800000x1_S800000x64_1_0_n_n_0_1_164.offCoord (ix2 e a) 1 = _
    rw [GatherDims.batchCoord_eq_zero _ _ _ List.not_mem_nil]
    unfold GatherDims.start
    rw [dif_neg (show (1 : Fin S50000x64.rank) ∉ gather_S50000x64_S800000x1_S800000x64_1_0_n_n_0_1_164.startIndexMap
      from by decide)]
    unfold GatherDims.offCoord
    rw [dif_pos (show (1 : Fin S50000x64.rank) ∈ gather_S50000x64_S800000x1_S800000x64_1_0_n_n_0_1_164.sKept
      from by decide)]
    have key : ∀ k : Fin S800000x64.rank, k = 1 → ((ix2 e a : S800000x64.Idx) k).val = a.val := by
      intro k hk; subst hk; rfl
    show 0 + 0 + _ = a.val
    simp only [Nat.zero_add]
    exact key _ (by decide)

/-- The concatenated row of edge `e`. -/
theorem cat_apply (x0 : (⟨S50000x64, .f32⟩ : BufTy).Contents (Elt Ideal)) (x1 : (⟨S800000x32, .f32⟩ : BufTy).Contents (Elt Ideal))
    (x10 : (⟨S800000, .i32⟩ : BufTy).Contents (Elt Ideal)) (e : Fin 800000) (a : Fin 96) :
    (val_main_v7 (F := Ideal) x0 x1 x10 : S800000x96.Idx → EReal) (ix2 e a)
      = cat (c2 (x0 : S50000x64.Idx → EReal) (row (c1 (x10 : S800000.Idx → BitVec 32)) e)) (c2 (x1 : S800000x32.Idx → EReal) e) a := by
  unfold val_main_v7 Cert.Spec.cat
  by_cases h : a.val < 64
  · -- a column of the first piece: the gathered row
    rw [dif_pos h]
    refine (concatenate_pair_apply_left (s₁ := S800000x64) (s₂ := S800000x32) (1 : Fin S800000x96.rank) _ _ _ (ix2 e a) rfl
      (ix2 e (⟨a.val, h⟩ : Fin 64) : S800000x64.Idx) (fun b => ?_)).trans (gather_apply x0 x10 e ⟨a.val, h⟩)
    match b with
    | ⟨0, _⟩ => rfl
    | ⟨1, _⟩ => rfl
  · -- a column of the second piece: the edge's own features, the first extent less
    rw [dif_neg h]
    have h2 : a.val - 64 < 32 := by have := a.isLt; omega
    refine concatenate_pair_apply_right (s₁ := S800000x64) (s₂ := S800000x32) (1 : Fin S800000x96.rank) _ _ _ (ix2 e a) rfl rfl
      (ix2 e (⟨a.val - 64, h2⟩ : Fin 32) : S800000x32.Idx) (fun b hb => ?_) ?_
    · match b with
      | ⟨0, _⟩ => rfl
      | ⟨1, _⟩ => exact absurd rfl hb
    · show a.val - 64 + 64 = a.val
      omega

/-- The first-layer matrix of layer 0, read by its coordinates. -/
private theorem w1_0_apply (x2 : (⟨S2x96x64, .f32⟩ : BufTy).Contents (Elt Ideal)) (a : Fin 96) (k : Fin 64) :
    val_main_v10 (F := Ideal) x2 (ix2 a k) = (x2 : S2x96x64.Idx → EReal) (ix3 0 a k) := by
  rw [val_main_v10_apply, val_main_v9_apply]
  congr 1
  funext c; refine Fin.ext ?_
  match c with
  | ⟨0, _⟩ => rfl
  | ⟨1, _⟩ => show (a.val * 64 + k.val) / 64 % 96 = a.val; have := a.isLt; have := k.isLt; omega
  | ⟨2, _⟩ => show (a.val * 64 + k.val) % 64 = k.val; have := k.isLt; omega

/-- The first-layer matrix of layer 1, read by its coordinates. -/
private theorem w1_1_apply (x2 : (⟨S2x96x64, .f32⟩ : BufTy).Contents (Elt Ideal)) (a : Fin 96) (k : Fin 64) :
    val_main_v28 (F := Ideal) x2 (ix2 a k) = (x2 : S2x96x64.Idx → EReal) (ix3 1 a k) := by
  rw [val_main_v28_apply, val_main_v27_apply]
  congr 1
  funext c; refine Fin.ext ?_
  match c with
  | ⟨0, _⟩ => rfl
  | ⟨1, _⟩ => show (a.val * 64 + k.val) / 64 % 96 = a.val; have := a.isLt; have := k.isLt; omega
  | ⟨2, _⟩ => show (a.val * 64 + k.val) % 64 = k.val; have := k.isLt; omega

/-- The second-layer matrix of layer 0, read by its coordinates. -/
private theorem w2_0_apply (x4 : (⟨S2x64x64, .f32⟩ : BufTy).Contents (Elt Ideal)) (k j : Fin 64) :
    val_main_v19 (F := Ideal) x4 (ix2 k j) = (x4 : S2x64x64.Idx → EReal) (ix3 0 k j) := by
  rw [val_main_v19_apply, val_main_v18_apply]
  congr 1
  funext c; refine Fin.ext ?_
  match c with
  | ⟨0, _⟩ => rfl
  | ⟨1, _⟩ => show (k.val * 64 + j.val) / 64 % 64 = k.val; have := k.isLt; have := j.isLt; omega
  | ⟨2, _⟩ => show (k.val * 64 + j.val) % 64 = j.val; have := j.isLt; omega

/-- The second-layer matrix of layer 1, read by its coordinates. -/
private theorem w2_1_apply (x4 : (⟨S2x64x64, .f32⟩ : BufTy).Contents (Elt Ideal)) (k j : Fin 64) :
    val_main_v37 (F := Ideal) x4 (ix2 k j) = (x4 : S2x64x64.Idx → EReal) (ix3 1 k j) := by
  rw [val_main_v37_apply, val_main_v36_apply]
  congr 1
  funext c; refine Fin.ext ?_
  match c with
  | ⟨0, _⟩ => rfl
  | ⟨1, _⟩ => show (k.val * 64 + j.val) / 64 % 64 = k.val; have := k.isLt; have := j.isLt; omega
  | ⟨2, _⟩ => show (k.val * 64 + j.val) % 64 = j.val; have := j.isLt; omega

/-- The first-layer bias of layer 0, the same on every edge. -/
private theorem b1_0_apply (x3 : (⟨S2x64, .f32⟩ : BufTy).Contents (Elt Ideal)) (e : Fin 800000) (k : Fin 64) :
    val_main_v15 (F := Ideal) x3 (ix2 e k) = (x3 : S2x64.Idx → EReal) (ix2 0 k) := by
  rw [val_main_v15_apply, val_main_v14_apply, val_main_v13_apply, val_main_v12_apply]
  congr 1
  funext c; refine Fin.ext ?_
  match c with
  | ⟨0, _⟩ => rfl
  | ⟨1, _⟩ => show k.val % 64 = k.val; have := k.isLt; omega

/-- The first-layer bias of layer 1, the same on every edge. -/
private theorem b1_1_apply (x3 : (⟨S2x64, .f32⟩ : BufTy).Contents (Elt Ideal)) (e : Fin 800000) (k : Fin 64) :
    val_main_v33 (F := Ideal) x3 (ix2 e k) = (x3 : S2x64.Idx → EReal) (ix2 1 k) := by
  rw [val_main_v33_apply, val_main_v32_apply, val_main_v31_apply, val_main_v30_apply]
  congr 1
  funext c; refine Fin.ext ?_
  match c with
  | ⟨0, _⟩ => rfl
  | ⟨1, _⟩ => show k.val % 64 = k.val; have := k.isLt; omega

/-- The second-layer bias of layer 0, the same on every edge. -/
private theorem b2_0_apply (x5 : (⟨S2x64, .f32⟩ : BufTy).Contents (Elt Ideal)) (e : Fin 800000) (j : Fin 64) :
    val_main_v24 (F := Ideal) x5 (ix2 e j) = (x5 : S2x64.Idx → EReal) (ix2 0 j) := by
  rw [val_main_v24_apply, val_main_v23_apply, val_main_v22_apply, val_main_v21_apply]
  congr 1
  funext c; refine Fin.ext ?_
  match c with
  | ⟨0, _⟩ => rfl
  | ⟨1, _⟩ => show j.val % 64 = j.val; have := j.isLt; omega

/-- The second-layer bias of layer 1, the same on every edge. -/
private theorem b2_1_apply (x5 : (⟨S2x64, .f32⟩ : BufTy).Contents (Elt Ideal)) (e : Fin 800000) (j : Fin 64) :
    val_main_v42 (F := Ideal) x5 (ix2 e j) = (x5 : S2x64.Idx → EReal) (ix2 1 j) := by
  rw [val_main_v42_apply, val_main_v41_apply, val_main_v40_apply, val_main_v39_apply]
  congr 1
  funext c; refine Fin.ext ?_
  match c with
  | ⟨0, _⟩ => rfl
  | ⟨1, _⟩ => show j.val % 64 = j.val; have := j.isLt; omega

/-- The hidden units of layer 0 on edge `e`: the concatenated row against the whole first-layer matrix. -/
private theorem hid0_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x10 : (⟨S800000, .i32⟩ : BufTy).Contents (Elt Ideal)) (e : Fin 800000) (k : Fin 64) :
    (val_main_v17 (F := Ideal) x0 x1 x2 x3 x10 : S800000x64.Idx → EReal) (ix2 e k)
      = hidR (cat (c2 (x0 : S50000x64.Idx → EReal) (row (c1 (x10 : S800000.Idx → BitVec 32)) e)) (c2 (x1 : S800000x32.Idx → EReal) e))
          (c3 (x2 : S2x96x64.Idx → EReal) 0) (c2 (x3 : S2x64.Idx → EReal) 0) k := by
  have hl : ∀ a : Fin 96, lidx_main_v11 (ix2 e k) a = ix2 e a := fun a => funext fun c => Fin.ext (by
    match c with | ⟨0, _⟩ => rfl | ⟨1, _⟩ => rfl)
  have hr : ∀ a : Fin 96, ridx_main_v11 (ix2 e k) a = ix2 a k := fun a => funext fun c => Fin.ext (by
    match c with | ⟨0, _⟩ => rfl | ⟨1, _⟩ => rfl)
  unfold Cert.Spec.hidR
  rw [val_main_v17_apply, val_main_v16_apply, val_main_v11_apply, val_main_call0_v0_apply, val_main_call0_cst_apply,
    b1_0_apply]
  simp only [hl, hr, cat_apply, w1_0_apply, Ideal.ofBits_def, Ideal.ofBits_zero_f32, Ideal.addf_def, Ideal.maximumf_def]

/-- The hidden units of layer 1 on edge `e`. -/
private theorem hid1_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x10 : (⟨S800000, .i32⟩ : BufTy).Contents (Elt Ideal)) (e : Fin 800000) (k : Fin 64) :
    (val_main_v35 (F := Ideal) x0 x1 x2 x3 x10 : S800000x64.Idx → EReal) (ix2 e k)
      = hidR (cat (c2 (x0 : S50000x64.Idx → EReal) (row (c1 (x10 : S800000.Idx → BitVec 32)) e)) (c2 (x1 : S800000x32.Idx → EReal) e))
          (c3 (x2 : S2x96x64.Idx → EReal) 1) (c2 (x3 : S2x64.Idx → EReal) 1) k := by
  have hl : ∀ a : Fin 96, lidx_main_v29 (ix2 e k) a = ix2 e a := fun a => funext fun c => Fin.ext (by
    match c with | ⟨0, _⟩ => rfl | ⟨1, _⟩ => rfl)
  have hr : ∀ a : Fin 96, ridx_main_v29 (ix2 e k) a = ix2 a k := fun a => funext fun c => Fin.ext (by
    match c with | ⟨0, _⟩ => rfl | ⟨1, _⟩ => rfl)
  unfold Cert.Spec.hidR
  rw [val_main_v35_apply, val_main_v34_apply, val_main_v29_apply, val_main_call1_v0_apply, val_main_call1_cst_apply,
    b1_1_apply]
  simp only [hl, hr, cat_apply, w1_1_apply, Ideal.ofBits_def, Ideal.ofBits_zero_f32, Ideal.addf_def, Ideal.maximumf_def]

/-- The message array. -/
theorem msg_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x10 : (⟨S800000, .i32⟩ : BufTy).Contents (Elt Ideal)) (e : Fin 800000) (j : Fin 64) :
    (val_main_v44 (F := Ideal) x0 x1 x2 x3 x4 x5 x10 : S800000x64.Idx → EReal) (ix2 e j)
      = msgR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c1 (x10 : S800000.Idx → BitVec 32)) e j := by
  have hl0 : ∀ k : Fin 64, lidx_main_v20 (ix2 e j) k = ix2 e k := fun k => funext fun c => Fin.ext (by
    match c with | ⟨0, _⟩ => rfl | ⟨1, _⟩ => rfl)
  have hr0 : ∀ k : Fin 64, ridx_main_v20 (ix2 e j) k = ix2 k j := fun k => funext fun c => Fin.ext (by
    match c with | ⟨0, _⟩ => rfl | ⟨1, _⟩ => rfl)
  have hl1 : ∀ k : Fin 64, lidx_main_v38 (ix2 e j) k = ix2 e k := fun k => funext fun c => Fin.ext (by
    match c with | ⟨0, _⟩ => rfl | ⟨1, _⟩ => rfl)
  have hr1 : ∀ k : Fin 64, ridx_main_v38 (ix2 e j) k = ix2 k j := fun k => funext fun c => Fin.ext (by
    match c with | ⟨0, _⟩ => rfl | ⟨1, _⟩ => rfl)
  unfold Cert.Spec.msgR Cert.Spec.msgRowR
  rw [val_main_v44_apply, val_main_v26_apply, val_main_v43_apply, val_main_v25_apply, val_main_v20_apply,
    val_main_v38_apply, val_main_v8_apply, val_main_cst_apply, b2_0_apply, b2_1_apply]
  simp only [hl0, hr0, hl1, hr1, hid0_apply, hid1_apply, w2_0_apply, w2_1_apply, Ideal.ofBits_def,
    Ideal.ofBits_zero_f32, Ideal.addf_def]

end Cert.ReferenceIdeal.Hand

end
-- ==== Proof.RefOut.lean ====
/-
  The reference's result read at one element, from its message array: the two scatters (the messages, and a vector of
  ones) put on each node the sum of what lands on it, onto zero; the quotient by the degree plus the small constant; the
  node's own row and that quotient laid end to end; one hidden layer and the output layer, each a sum over its contracted
  axis with its bias added.
-/
import proofs.«424879_j24713241821695_4_alg».proof.Proof.RefMsg
import proofs.«424879_j24713241821695_4_alg».proof.Proof.LibScatter
import Idealize.ShloMosaic.Lib.StableHlo.Predicate

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Read Cert.Spec

/-- The scatter of rows of 64, read at one element: the operand's element plus the updates whose index word, read signed,
    is the node's number. -/
theorem scat64_apply (x : FVec Ideal S50000x64 .f32) (idx : IVec S800000x1 32)
    (upd : FVec Ideal S800000x64 .f32) (n : Fin 50000) (a : Fin 64) :
    (Host.scatterAdd (F := Ideal) (φ := .f32) scatter_S50000x64_S800000x1_S800000x64_1_0_0_1 x idx upd : S50000x64.Idx → EReal) (ix2 n a)
      = (x : S50000x64.Idx → EReal) (ix2 n a)
        + ∑ e : Fin 800000, if ((idx : S800000x1.Idx → BitVec 32) (ix2 e 0)).toInt = (n.val : ℤ)
            then (upd : S800000x64.Idx → EReal) (ix2 e a) else 0 := by
  exact Cert.LibScatter.scatterAdd_rows_apply scatter_S50000x64_S800000x1_S800000x64_1_0_0_1_wf x idx upd n a

/-- The scatter of scalars, read at one element. -/
theorem scat1_apply (x : FVec Ideal S50000 .f32) (idx : IVec S800000x1 32)
    (upd : FVec Ideal S800000 .f32) (n : Fin 50000) :
    (Host.scatterAdd (F := Ideal) (φ := .f32) scatter_S50000_S800000x1_S800000_n_0_0_1 x idx upd : S50000.Idx → EReal) (ix1 n)
      = (x : S50000.Idx → EReal) (ix1 n)
        + ∑ e : Fin 800000, if ((idx : S800000x1.Idx → BitVec 32) (ix2 e 0)).toInt = (n.val : ℤ)
            then (upd : S800000.Idx → EReal) (ix1 e) else 0 := by
  exact Cert.LibScatter.scatterAdd_vec_apply scatter_S50000_S800000x1_S800000_n_0_0_1_wf x idx upd n

/-- The index word of update row `e`, read through the added unit axis, is the word of `e`. -/
private theorem idx46_ix (e : Fin 800000) : idx_main_v46 (ix2 e (0 : Fin 1)) = ix1 e := by
  funext d
  match d with
  | ⟨0, _⟩ => rfl

private theorem idx50_ix (e : Fin 800000) : idx_main_v50 (ix2 e (0 : Fin 1)) = ix1 e := by
  funext d
  match d with
  | ⟨0, _⟩ => rfl

/-- The degree's row index, read back through the two broadcasts, is the node. -/
private theorem idx52_55_ix (n : Fin 50000) (a : Fin 64) : idx_main_v52 (idx_main_v55 (ix2 n a)) = ix1 n := by
  funext d
  match d with
  | ⟨0, _⟩ => rfl

/-- The scattered messages: onto zero, the sum of the messages whose destination word names the node. -/
private theorem agg_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x10 x11 : (⟨S800000, .i32⟩ : BufTy).Contents (Elt Ideal)) (n : Fin 50000) (a : Fin 64) :
    (val_main_v47 (F := Ideal) x0 x1 x2 x3 x4 x5 x10 x11 : S50000x64.Idx → EReal) (ix2 n a)
      = agg (msgR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c1 (x10 : S800000.Idx → BitVec 32))) (c1 (x11 : S800000.Idx → BitVec 32)) n a := by
  unfold val_main_v47
  rw [scat64_apply, val_main_v45_apply, val_main_cst_1_apply, Ideal.ofBits_def, Ideal.ofBits_zero_f32]
  unfold Cert.Spec.agg
  refine congrArg (fun t : EReal => 0 + t) (Finset.sum_congr rfl fun e _ => ?_)
  rw [val_main_v46_apply, idx46_ix, msg_apply]

/-- The scattered ones: onto zero, a one for every edge whose destination word names the node. -/
private theorem deg_apply (x11 : (⟨S800000, .i32⟩ : BufTy).Contents (Elt Ideal)) (n : Fin 50000) :
    (val_main_v51 (F := Ideal) x11 : S50000.Idx → EReal) (ix1 n) = deg (c1 (x11 : S800000.Idx → BitVec 32)) n := by
  unfold val_main_v51
  rw [scat1_apply, val_main_v49_apply, val_main_cst_3_apply, Ideal.ofBits_def, Ideal.ofBits_zero_f32]
  unfold Cert.Spec.deg
  refine congrArg (fun t : EReal => 0 + t) (Finset.sum_congr rfl fun e _ => ?_)
  rw [val_main_v50_apply, idx50_ix, val_main_v48_apply, val_main_cst_2_apply, Ideal.ofBits_def]

/-- The normalised aggregate. -/
theorem nrm_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x10 x11 : (⟨S800000, .i32⟩ : BufTy).Contents (Elt Ideal)) (n : Fin 50000) (a : Fin 64) :
    (val_main_v56 (F := Ideal) x0 x1 x2 x3 x4 x5 x10 x11 : S50000x64.Idx → EReal) (ix2 n a)
      = nrm (msgR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c1 (x10 : S800000.Idx → BitVec 32))) (c1 (x11 : S800000.Idx → BitVec 32)) n a := by
  rw [val_main_v56_apply, Ideal.hostDivf_def, agg_apply, val_main_v55_apply, val_main_v54_apply, Ideal.addf_def,
    val_main_v52_apply, val_main_v53_apply, val_main_cst_4_apply, Ideal.ofBits_def, idx52_55_ix, deg_apply]
  rfl

/-- The node's own row and its normalised aggregate laid end to end: below column 64 the node's row, from column 64 on
    the normalised aggregate 64 columns back. -/
private theorem cat2_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x10 x11 : (⟨S800000, .i32⟩ : BufTy).Contents (Elt Ideal)) (n : Fin 50000) (a : Fin 128) :
    (val_main_v57 (F := Ideal) x0 x1 x2 x3 x4 x5 x10 x11 : S50000x128.Idx → EReal) (ix2 n a)
      = cat (c2 (x0 : S50000x64.Idx → EReal) n) (nrm (msgR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c1 (x10 : S800000.Idx → BitVec 32))) (c1 (x11 : S800000.Idx → BitVec 32)) n) a := by
  have ha : a.val < 128 := a.isLt
  unfold val_main_v57 Cert.Spec.cat
  by_cases h : a.val < 64
  · rw [dif_pos h]
    exact concatenate_pair_apply_left (t := S50000x128) (s₁ := S50000x64) (s₂ := S50000x64) (1 : Fin 2) _ _ concatenates_S50000x64_S50000x64_S50000x128_d1 _ rfl
      (ix2 n (⟨a.val, h⟩ : Fin 64)) (fun b => by
        match b with
        | ⟨0, _⟩ => rfl
        | ⟨1, _⟩ => rfl)
  · rw [dif_neg h]
    refine (concatenate_pair_apply_right (t := S50000x128) (s₁ := S50000x64) (s₂ := S50000x64) (1 : Fin 2) _ _ concatenates_S50000x64_S50000x64_S50000x128_d1 _ rfl rfl
      (ix2 n (⟨a.val - 64, by omega⟩ : Fin 64)) (fun b hb => by
        match b with
        | ⟨0, _⟩ => rfl
        | ⟨1, _⟩ => exact absurd rfl hb) (by
        show a.val - 64 + 64 = a.val; omega)).trans ?_
    exact nrm_apply x0 x1 x2 x3 x4 x5 x10 x11 n _

/-- The index equations of the two layers: each composed index is the index of its coordinates. -/
private theorem lidx63_ix (n : Fin 50000) (j k : Fin 64) : lidx_main_v63 (ix2 n j) k = ix2 n k := by
  funext d
  match d with
  | ⟨0, _⟩ => rfl
  | ⟨1, _⟩ => rfl

private theorem ridx63_ix (n : Fin 50000) (j k : Fin 64) : ridx_main_v63 (ix2 n j) k = ix2 k j := by
  funext d
  match d with
  | ⟨0, _⟩ => rfl
  | ⟨1, _⟩ => rfl

private theorem lidx58_ix (n : Fin 50000) (k : Fin 64) (a : Fin 128) : lidx_main_v58 (ix2 n k) a = ix2 n a := by
  funext d
  match d with
  | ⟨0, _⟩ => rfl
  | ⟨1, _⟩ => rfl

private theorem ridx58_ix (n : Fin 50000) (k : Fin 64) (a : Fin 128) : ridx_main_v58 (ix2 n k) a = ix2 a k := by
  funext d
  match d with
  | ⟨0, _⟩ => rfl
  | ⟨1, _⟩ => rfl

private theorem idx59_60_ix (n : Fin 50000) (k : Fin 64) : idx_main_v59 (idx_main_v60 (ix2 n k)) = ix1 k := by
  funext d
  match d with
  | ⟨0, _⟩ => rfl

private theorem idx64_65_ix (n : Fin 50000) (j : Fin 64) : idx_main_v64 (idx_main_v65 (ix2 n j)) = ix1 j := by
  funext d
  match d with
  | ⟨0, _⟩ => rfl

/-- The hidden layer of the update network, read at one element: the hidden unit of the laid-out row. -/
private theorem hid_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x6 : (⟨S128x64, .f32⟩ : BufTy).Contents (Elt Ideal)) (x7 : (⟨S64, .f32⟩ : BufTy).Contents (Elt Ideal)) (x10 x11 : (⟨S800000, .i32⟩ : BufTy).Contents (Elt Ideal)) (n : Fin 50000) (k : Fin 64) :
    (val_main_v62 (F := Ideal) x0 x1 x2 x3 x4 x5 x6 x7 x10 x11 : S50000x64.Idx → EReal) (ix2 n k)
      = hidR (cat (c2 (x0 : S50000x64.Idx → EReal) n) (nrm (msgR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c1 (x10 : S800000.Idx → BitVec 32))) (c1 (x11 : S800000.Idx → BitVec 32)) n))
          (c2 (x6 : S128x64.Idx → EReal)) (c1 (x7 : S64.Idx → EReal)) k := by
  unfold Cert.Spec.hidR
  rw [val_main_v62_apply, Ideal.maximumf_def, val_main_v61_apply, Ideal.addf_def, val_main_v58_apply, val_main_v60_apply,
    val_main_v59_apply, idx59_60_ix, val_main_call2_v0_apply, val_main_call2_cst_apply, Ideal.ofBits_def,
    Ideal.ofBits_zero_f32]
  refine congrArg (fun t : EReal => max (t + (x7 : S64.Idx → EReal) (ix1 k)) 0) (Finset.sum_congr rfl fun a _ => ?_)
  rw [lidx58_ix, ridx58_ix, cat2_apply]

/-- The result. -/
theorem out_apply (x0 : (⟨S50000x64, .f32⟩ : BufTy).Contents (Elt Ideal)) (x1 : (⟨S800000x32, .f32⟩ : BufTy).Contents (Elt Ideal)) (x2 : (⟨S2x96x64, .f32⟩ : BufTy).Contents (Elt Ideal)) (x3 : (⟨S2x64, .f32⟩ : BufTy).Contents (Elt Ideal)) (x4 : (⟨S2x64x64, .f32⟩ : BufTy).Contents (Elt Ideal)) (x5 : (⟨S2x64, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 x11 : (⟨S800000, .i32⟩ : BufTy).Contents (Elt Ideal)) (n : Fin 50000) (j : Fin 64) :
    (val_main_v66 (F := Ideal) x0 x1 x2 x3 x4 x5 x6 x7 x8 x9 x10 x11 : S50000x64.Idx → EReal) (ix2 n j)
      = outR (c2 (x0 : S50000x64.Idx → EReal)) (c2 (x1 : S800000x32.Idx → EReal)) (c3 (x2 : S2x96x64.Idx → EReal))
          (c2 (x3 : S2x64.Idx → EReal)) (c3 (x4 : S2x64x64.Idx → EReal)) (c2 (x5 : S2x64.Idx → EReal))
          (c2 (x6 : S128x64.Idx → EReal)) (c1 (x7 : S64.Idx → EReal)) (c2 (x8 : S64x64.Idx → EReal)) (c1 (x9 : S64.Idx → EReal))
          (c1 (x10 : S800000.Idx → BitVec 32)) (c1 (x11 : S800000.Idx → BitVec 32)) n j := by
  unfold Cert.Spec.outR Cert.Spec.updRowR
  rw [val_main_v66_apply, Ideal.addf_def, val_main_v63_apply, val_main_v65_apply, val_main_v64_apply, idx64_65_ix]
  refine congrArg (fun t : EReal => t + (x9 : S64.Idx → EReal) (ix1 j)) (Finset.sum_congr rfl fun k _ => ?_)
  rw [lidx63_ix, ridx63_ix, hid_apply]

end Cert.ReferenceIdeal.Hand

end
-- ==== Proof.lean ====
/-
  The certificate of the graph message-passing layer: a two-layer message network over the gathered source-node rows
  and the edge features, a scatter-sum of the messages onto their destination nodes normalised by the node's degree,
  and an update network over each node's own features and its normalised aggregate.

  The kernel program computes the two networks in two row-blocked kernel regions (5000 rows a point), with the first
  layer's matrix cut in two and the two partial products added, and gets aggregate and degree from ONE scatter of the
  messages with a column of ones appended; the reference multiplies the concatenated rows by the whole matrices and
  scatters messages and ones apart.  On the extended reals a format change is the identity, a matrix product is the sum
  over its contracted axis, the sum over 96 (128) entries is the sum over the first 64 plus the sum over the rest, and
  addition is associative and commutative: the two programs compute one function, index by index (`Spec.outR_eq_outK`).
  The index range of the source indices is used once: the kernel's gather fills a row outside the table with a value
  the reference's clamped gather does not produce, and inside the range that fill is never selected.
  The three frames are the generated ones (the reference's is its generated run with the result dropped); the ideal
  pass rewrote nothing, so there is nothing to preserve.
-/
import proofs.«424879_j24713241821695_4_alg».proof.Defs
import proofs.«424879_j24713241821695_4_alg».proof.Proof.Gen.Kernel.Frame
import proofs.«424879_j24713241821695_4_alg».proof.Proof.Gen.KernelIdeal.Frame
import proofs.«424879_j24713241821695_4_alg».proof.Proof.Gen.ReferenceIdeal
import proofs.«424879_j24713241821695_4_alg».proof.Proof.Gen.ReferenceIdeal.Run
import proofs.«424879_j24713241821695_4_alg».proof.Proof.Gen.ReferenceIdeal.Read
import proofs.«424879_j24713241821695_4_alg».proof.Proof.Gen.Pre_finite_inputs
import proofs.«424879_j24713241821695_4_alg».proof.Proof.PreDecode
import proofs.«424879_j24713241821695_4_alg».proof.Proof.KRun
import proofs.«424879_j24713241821695_4_alg».proof.Proof.KValue
import proofs.«424879_j24713241821695_4_alg».proof.Proof.RefOut
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass's ledger is empty. -/
theorem preserves : Cert.preserves_Kernel_KernelIdeal := trivial

/-- Under the precondition the kernel program's result array ends at the last boundary's contents, the reference's at
    its composed term; read at any element both are the specification's function of the argument arrays, which agree. -/
theorem algebraic : Cert.algebraic_KernelIdeal_ReferenceIdeal := by
  intro m ρ m' ρ' hpre hagree
  refine ⟨fun c => Cert.KernelIdeal.Gen.W5 m ρ c (Proc.devRef .tc Cert.KernelIdeal.main_v21),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  have hs : Cert.KernelIdeal.Hand.SrcInRange m c := fun e =>
    Cert.Pre_finite_inputs.Hand.src_range _ _ _ _ _ _ _ _ _ _ _ _ (hpre c) e
  rw [Cert.ReferenceIdeal.Read.val_main_v66_eq]
  obtain ⟨h0, h1, h2, h3, h4, h5, h6, h7, h8, h9, h10, h11⟩ := hagree c
  rw [h0, h1, h2, h3, h4, h5, h6, h7, h8, h9, h10, h11]
  funext i
  obtain ⟨n, j, rfl⟩ : ∃ (n : Fin 50000) (j : Fin 64), i = ix2 n j := ⟨i 0, i 1, eq_ix2 i⟩
  refine (Cert.ReferenceIdeal.Hand.out_apply _ _ _ _ _ _ _ _ _ _ _ _ n j).trans ?_
  rw [Cert.Spec.outR_eq_outK]
  exact (Cert.KernelIdeal.Hand.kernel_apply m ρ c hs n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
